-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14_2)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_2) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S1024x512 .f32) (main_arg12 : FVec F S512 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x512 .f32 := Host.absf main_arg11
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S2048x1024 .f32) (main_arg8 : FVec F S1024 .f32) (main_arg9 : FVec F S2048x1024 .f32) (main_arg10 : FVec F S1024 .f32) (main_arg11 : FVec F S1024x512 .f32) (main_arg12 : FVec F S512 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_arg11 : FVec F S1024x512 .f32) (main_arg12 : FVec F S512 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_arg11 : FVec F S1024x512 .f32) (main_arg12 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S1024x4096 : Shape := ⟨2, ![1024, 4096]⟩
abbrev S4096 : Shape := ⟨1, ![4096]⟩
abbrev S8192x512 : Shape := ⟨2, ![8192, 512]⟩
abbrev S128x1024 : Shape := ⟨2, ![128, 1024]⟩
abbrev S128x512 : Shape := ⟨2, ![128, 512]⟩
abbrev S128x4096 : Shape := ⟨2, ![128, 4096]⟩
abbrev S1x4096 : Shape := ⟨2, ![1, 4096]⟩
abbrev S1x512 : Shape := ⟨2, ![1, 512]⟩

abbrev nBuf : Space → Nat
  | .hbm => 30
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x4096, .f32⟩
  | .hbm, ⟨18, _⟩ => ⟨S1024x4096, .bf16⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x4096, .f32⟩
  | .hbm, ⟨24, _⟩ => ⟨S1024x4096, .bf16⟩
  | .hbm, ⟨25, _⟩ => ⟨S4096, .f32⟩
  | .hbm, ⟨26, _⟩ => ⟨S1024x512, .bf16⟩
  | .hbm, ⟨27, _⟩ => ⟨S8192x1024, .f32⟩
  | .hbm, ⟨28, _⟩ => ⟨S8192x1024, .f32⟩
  | .hbm, ⟨29, _⟩ => ⟨S8192x512, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S1024x512, .bf16⟩
  | .local _ .vmem, ⟨10, _⟩ => ⟨S512, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x512, .f32⟩
  | .local _ .vmem, ⟨16, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2048x1024_S1024x1024_0_0 : S2048x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S2048x1024_S1024x1024_1024_0 : S2048x1024.Slices ![1024, 0] S1024x1024
  concatenates_S1024_S1024_S1024_S1024_S4096_d0 : Shape.Concatenates [S1024, S1024, S1024, S1024] S4096 0
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  dot_S128x1024_S1024x4096_S128x4096_1_0_0_1_n_n_wf : DotDims.WF S128x1024 S1024x4096 S128x4096 [1] [0] [0] [1] [] []
  dot_S128x1024_S1024x512_S128x512_1_0_0_1_n_n_wf : DotDims.WF S128x1024 S1024x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S8192x1024.size a
  hwx0_8 : ∀ i : grid0.Coords, EltTy.bits .f32 = 32 ∨ (Rect.block (s := S8192x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S8192x512.size a
  hwx0_10 : ∀ i : grid0.Coords, EltTy.bits .f32 = 32 ∨ (Rect.block (s := S8192x512) S128x512.size (cc0_transform_10 i) (hinb0_10 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_1) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_2) S128x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S8192x512 : Shape := ⟨2, ![8192, 512]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S8192x2048, .f32⟩
  | .hbm, ⟨14, _⟩ => ⟨S2048x4096, .f32⟩
  | .hbm, ⟨15, _⟩ => ⟨S4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x512, .f32⟩
  | .hbm, ⟨55, _⟩ => ⟨S1x512, .f32⟩
  | .hbm, ⟨56, _⟩ => ⟨S8192x512, .f32⟩
  | .hbm, ⟨57, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x2048_S2048x4096_S8192x4096_1_0_0_1_n_n_wf : DotDims.WF S8192x2048 S2048x4096 S8192x4096 [1] [0] [0] [1] [] []
  dot_S8192x1024_S1024x512_S8192x512_1_0_0_1_n_n_wf : DotDims.WF S8192x1024 S1024x512 S8192x512 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.KernelFrame.lean ====
/-
  The frame of the kernel program, at any float instance.

  The program is fourteen host operations (slices of the four gate weights into their input rows and their
  state rows, each four laid side by side and narrowed, the four gate biases laid end to end, the output weight
  narrowed) followed by one pipelined region over 64 row blocks. At block t the body reads rows
  128 t … 128 t + 127 of the three batch arrays and the five resident parameter arrays whole, and overwrites
  the same rows of the three result arrays. Nothing is kept between blocks, so the run is: the host
  operations' fold over the launch memory, then at each block the three results as one function of the eight
  inputs' blocks. The argument arrays are written by no host operation and staged only as inputs, so they end
  as launched.
-/
import proofs.«128882_j37778532335717_1_alg».proof.Proof.Gen.Kernel.Launch
import proofs.«128882_j37778532335717_1_alg».proof.Proof.Gen.Kernel.Skeleton
import proofs.«128882_j37778532335717_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the fold of the fourteen host operations over the launch memory. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's staging buffer holds its block at every point, whether the pipeline fetched it there or not: a
    window that is not fetched has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The claim's post from the run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 7).trans (((dats 0 c).arrAt_in 7 rfl _).trans ((hA c 7).trans (V_main_arg12 m c)))⟩) h

/-! ## The body's accesses: every load and store is of a whole staging buffer -/

abbrev rA : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S4096 := Rect.unit (s := S4096) ![0] S4096.size inb_S4096_S4096_0
abbrev rWy : Rect S1024x512 := Rect.unit (s := S1024x512) ![0, 0] S1024x512.size inb_S1024x512_S1024x512_0_0
abbrev rBy : Rect S512 := Rect.unit (s := S512) ![0] S512.size inb_S512_S512_0
abbrev rY : Rect S128x512 := Rect.unit (s := S128x512) ![0, 0] S128x512.size inb_S128x512_S128x512_0_0

/-! ## What the body leaves in each result's staging buffer, from the eight inputs' blocks -/

/-- The new cell state's block: the forget gate times the old state plus the input gate times the candidate. -/
def cOut (x0 x1 x2 : Vec F S128x1024 .f32) (x3 x4 : Vec F S1024x4096 .bf16) (x5 : Vec F S4096 .f32) : Vec F S128x1024 .f32 :=
  View.canon [⟨rA, k0_pay3 (View.ld x0 rA) (View.ld x1 rA) (View.ld x3 rW) (View.ld x4 rW) (View.ld x5 rB) (View.ld x2 rA)⟩]
/-- The new hidden state's block: the output gate times the hyperbolic tangent of the new cell state. -/
def hOut (x0 x1 x2 : Vec F S128x1024 .f32) (x3 x4 : Vec F S1024x4096 .bf16) (x5 : Vec F S4096 .f32) : Vec F S128x1024 .f32 :=
  View.canon [⟨rA, k0_pay4 (View.ld x0 rA) (View.ld x1 rA) (View.ld x3 rW) (View.ld x4 rW) (View.ld x5 rB) (View.ld x2 rA)⟩]
/-- The prediction's block: the new hidden state times the output weight, plus the output bias. -/
def yOut (x0 x1 x2 : Vec F S128x1024 .f32) (x3 x4 : Vec F S1024x4096 .bf16) (x5 : Vec F S4096 .f32) (x6 : Vec F S1024x512 .bf16) (x7 : Vec F S512 .f32) : Vec F S128x512 .f32 :=
  View.canon [⟨rY, k0_pay1 (k0_pay5 (View.ld x0 rA) (View.ld x1 rA) (View.ld x3 rW) (View.ld x4 rW) (View.ld x5 rB) (View.ld x2 rA) (View.ld x6 rWy)) (View.ld x7 rBy)⟩]

theorem cover_cOut (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y
theorem cover_hOut (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y
theorem cover_yOut (p0 : Vec F S128x512 .f32) (y : S128x512.Idx) :
    ∃ pc ∈ ([⟨rY, p0⟩] : List (View.Piece (Elt F) S128x512 .f32)), y ∈ pc.1.set :=
  View.cover_of_tiled [⟨rY, p0⟩] S128x512.size (by rfl) y

/-! ## The body's triple -/

set_option maxHeartbeats 1000000 in
/-- On whole staging buffers, the inputs' at given contents and the results' at anything, the body runs to the
    continuation holding the inputs' as they were and each result's at its function of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x512 .f32) (harg11 : arg11.IsWhole)
    (x0 x1 x2 : Vec F S128x1024 .f32) (x3 x4 : Vec F S1024x4096 .bf16) (x5 : Vec F S4096 .f32) (x6 : Vec F S1024x512 .bf16) (x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (hOut x0 x1 x2 x3 x4 x5) ∗ owns (c : Thread nD τ) arg10 fullShare (cOut x0 x1 x2 x3 x4 x5) ∗ owns (c : Thread nD τ) arg11 fullShare (yOut x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_hOut _)
  isplitl [H9]
  · iexists _; isplitr
    swap; · iexact H9
    ipureintro
    exact View.read_writes_eq_canon _ _ _ (cover_cOut _)
  iexists _; isplitr
  swap; · iexact H10
  ipureintro
  exact View.read_writes_eq_canon _ _ _ (cover_yOut _)

/-! ## The pipeline's proof data -/

/-- The arrays as the region finds them; after the body at block t each input's buffer still at its block and
    each result's at its function of the eight input blocks; nothing carried between blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hOut (iblk m c 0 t) (iblk m c 1 t) (iblk m c 2 t) (iblk m c 3 t) (iblk m c 4 t) (iblk m c 5 t)
    | ⟨9, _⟩ => cOut (iblk m c 0 t) (iblk m c 1 t) (iblk m c 2 t) (iblk m c 3 t) (iblk m c 4 t) (iblk m c 5 t)
    | ⟨10, _⟩ => yOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = hOut (iblk m c 0 t) (iblk m c 1 t) (iblk m c 2 t) (iblk m c 3 t) (iblk m c 4 t) (iblk m c 5 t) := by dsimp only [dats]
theorem after9 (c : Dev nD) (t : Fin cfg0.N) : (dats m 0 c).after 9 t = cOut (iblk m c 0 t) (iblk m c 1 t) (iblk m c 2 t) (iblk m c 3 t) (iblk m c 4 t) (iblk m c 5 t) := by dsimp only [dats]
theorem after10 (c : Dev nD) (t : Fin cfg0.N) : (dats m 0 c).after 10 t = yOut (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d

/-! ## The body obligation, at a generic block -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each result array holding what the blocks' write-backs
    put there and every other unscoped buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Fr

end
-- ==== Proof.KernelIdealFrame.lean ====
/-
  The frame of the idealized kernel program, at any float instance.

  The program is fourteen host operations (slices of the four gate weights into their input rows and their
  state rows, each four laid side by side and narrowed, the four gate biases laid end to end, the output weight
  narrowed) followed by one pipelined region over 64 row blocks. At block t the body reads rows
  128 t … 128 t + 127 of the three batch arrays and the five resident parameter arrays whole, and overwrites
  the same rows of the three result arrays. Nothing is kept between blocks, so the run is: the host
  operations' fold over the launch memory, then at each block the three results as one function of the eight
  inputs' blocks. The argument arrays are written by no host operation and staged only as inputs, so they end
  as launched.
-/
import proofs.«128882_j37778532335717_1_alg».proof.Proof.Gen.KernelIdeal.Launch
import proofs.«128882_j37778532335717_1_alg».proof.Proof.Gen.KernelIdeal.Skeleton
import proofs.«128882_j37778532335717_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the fold of the fourteen host operations over the launch memory. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's staging buffer holds its block at every point, whether the pipeline fetched it there or not: a
    window that is not fetched has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The claim's post from the run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 7).trans (((dats 0 c).arrAt_in 7 rfl _).trans ((hA c 7).trans (V_main_arg12 m c)))⟩) h

/-! ## The body's accesses: every load and store is of a whole staging buffer -/

abbrev rA : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S4096 := Rect.unit (s := S4096) ![0] S4096.size inb_S4096_S4096_0
abbrev rWy : Rect S1024x512 := Rect.unit (s := S1024x512) ![0, 0] S1024x512.size inb_S1024x512_S1024x512_0_0
abbrev rBy : Rect S512 := Rect.unit (s := S512) ![0] S512.size inb_S512_S512_0
abbrev rY : Rect S128x512 := Rect.unit (s := S128x512) ![0, 0] S128x512.size inb_S128x512_S128x512_0_0

/-! ## What the body leaves in each result's staging buffer, from the eight inputs' blocks -/

/-- The new cell state's block: the forget gate times the old state plus the input gate times the candidate. -/
def cOut (x0 x1 x2 : Vec F S128x1024 .f32) (x3 x4 : Vec F S1024x4096 .bf16) (x5 : Vec F S4096 .f32) : Vec F S128x1024 .f32 :=
  View.canon [⟨rA, k0_pay3 (View.ld x0 rA) (View.ld x1 rA) (View.ld x3 rW) (View.ld x4 rW) (View.ld x5 rB) (View.ld x2 rA)⟩]
/-- The new hidden state's block: the output gate times the hyperbolic tangent of the new cell state. -/
def hOut (x0 x1 x2 : Vec F S128x1024 .f32) (x3 x4 : Vec F S1024x4096 .bf16) (x5 : Vec F S4096 .f32) : Vec F S128x1024 .f32 :=
  View.canon [⟨rA, k0_pay4 (View.ld x0 rA) (View.ld x1 rA) (View.ld x3 rW) (View.ld x4 rW) (View.ld x5 rB) (View.ld x2 rA)⟩]
/-- The prediction's block: the new hidden state times the output weight, plus the output bias. -/
def yOut (x0 x1 x2 : Vec F S128x1024 .f32) (x3 x4 : Vec F S1024x4096 .bf16) (x5 : Vec F S4096 .f32) (x6 : Vec F S1024x512 .bf16) (x7 : Vec F S512 .f32) : Vec F S128x512 .f32 :=
  View.canon [⟨rY, k0_pay1 (k0_pay5 (View.ld x0 rA) (View.ld x1 rA) (View.ld x3 rW) (View.ld x4 rW) (View.ld x5 rB) (View.ld x2 rA) (View.ld x6 rWy)) (View.ld x7 rBy)⟩]

theorem cover_cOut (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y
theorem cover_hOut (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y
theorem cover_yOut (p0 : Vec F S128x512 .f32) (y : S128x512.Idx) :
    ∃ pc ∈ ([⟨rY, p0⟩] : List (View.Piece (Elt F) S128x512 .f32)), y ∈ pc.1.set :=
  View.cover_of_tiled [⟨rY, p0⟩] S128x512.size (by rfl) y

/-! ## The body's triple -/

set_option maxHeartbeats 1000000 in
/-- On whole staging buffers, the inputs' at given contents and the results' at anything, the body runs to the
    continuation holding the inputs' as they were and each result's at its function of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x512 .f32) (harg11 : arg11.IsWhole)
    (x0 x1 x2 : Vec F S128x1024 .f32) (x3 x4 : Vec F S1024x4096 .bf16) (x5 : Vec F S4096 .f32) (x6 : Vec F S1024x512 .bf16) (x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (hOut x0 x1 x2 x3 x4 x5) ∗ owns (c : Thread nD τ) arg10 fullShare (cOut x0 x1 x2 x3 x4 x5) ∗ owns (c : Thread nD τ) arg11 fullShare (yOut x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_hOut _)
  isplitl [H9]
  · iexists _; isplitr
    swap; · iexact H9
    ipureintro
    exact View.read_writes_eq_canon _ _ _ (cover_cOut _)
  iexists _; isplitr
  swap; · iexact H10
  ipureintro
  exact View.read_writes_eq_canon _ _ _ (cover_yOut _)

/-! ## The pipeline's proof data -/

/-- The arrays as the region finds them; after the body at block t each input's buffer still at its block and
    each result's at its function of the eight input blocks; nothing carried between blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hOut (iblk m c 0 t) (iblk m c 1 t) (iblk m c 2 t) (iblk m c 3 t) (iblk m c 4 t) (iblk m c 5 t)
    | ⟨9, _⟩ => cOut (iblk m c 0 t) (iblk m c 1 t) (iblk m c 2 t) (iblk m c 3 t) (iblk m c 4 t) (iblk m c 5 t)
    | ⟨10, _⟩ => yOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = hOut (iblk m c 0 t) (iblk m c 1 t) (iblk m c 2 t) (iblk m c 3 t) (iblk m c 4 t) (iblk m c 5 t) := by dsimp only [dats]
theorem after9 (c : Dev nD) (t : Fin cfg0.N) : (dats m 0 c).after 9 t = cOut (iblk m c 0 t) (iblk m c 1 t) (iblk m c 2 t) (iblk m c 3 t) (iblk m c 4 t) (iblk m c 5 t) := by dsimp only [dats]
theorem after10 (c : Dev nD) (t : Fin cfg0.N) : (dats m 0 c).after 10 t = yOut (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d

/-! ## The body obligation, at a generic block -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each result array holding what the blocks' write-backs
    put there and every other unscoped buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.KernelBlock.lean ====
/-
  The kernel body's three stored values read at an index of the block, as sums and products of the entries of the
  eight loaded blocks: the 4096 gate pre-activations of a block row, then the new cell state, the new hidden
  state and the prediction of that row.
-/
import proofs.«128882_j37778532335717_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.TcCoe Idealize.SL.Sem Idealize.ShloMosaic.ValueIdx

variable (v0 v2 : S128x1024.Idx → EReal) (v4 v7 : S1024x4096.Idx → EReal) (v11 : S4096.Idx → EReal)
  (v24 : S128x1024.Idx → EReal) (v33 : S1024x512.Idx → EReal) (v36 : S512.Idx → EReal)

/-- Column n of a block row's gate pre-activations: the input row times column n of the input weights, plus the
    hidden row times column n of the hidden weights, plus entry n of the bias. -/
def pre (p : Fin 128) (n : Fin 4096) : EReal :=
  ((∑ k : Fin 1024, v0 (ix2 p k) * v4 (ix2 k n)) + ∑ k : Fin 1024, v2 (ix2 p k) * v7 (ix2 k n)) + v11 (ix1 n)

/-- Column j of gate g (g = 0 input, 1 forget, 2 output, 3 candidate) among the 4096. -/
abbrev col (g : Nat) (hg : g < 4) (j : Fin 1024) : Fin 4096 := ⟨1024 * g + j.val, by have := j.isLt; omega⟩

/-- Row axis of the left operand's index: the output row. -/
theorem lhs_gates_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
/-- Column axis of the left operand's index: the contraction coordinate. -/
theorem lhs_gates_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
/-- Row axis of the right operand's index: the contraction coordinate. -/
theorem rhs_gates_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
/-- Column axis of the right operand's index: the output column. -/
theorem rhs_gates_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A product into the zero accumulator, read at row p and column n of the 4096 gate columns: the sum over the 1024 contraction coordinates of the left operand's row p times the right operand's column n. -/
theorem matmul_gates_apply (a : FVec Ideal S128x1024 .bf16) (b : FVec Ideal S1024x4096 .bf16) (p : Fin 128) (n : Fin 4096) :
    matmul (F := Ideal) dot_S128x1024_S1024x4096_S128x4096_1_0_0_1_n_n none a b (constant (F := Ideal) S128x4096 .f32 0x00000000#32) (ix2 p n)
      = ∑ k : Fin 1024, a (ix2 p k) * b (ix2 k n) := by
  simp only [matmul]
  rw [Ideal.matmul_constant_zero_apply, ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p n) ((contrEquiv1 dot_S128x1024_S1024x4096_S128x4096_1_0_0_1_n_n 1024 rfl rfl).symm k) = ix2 p k := funext fun a => Fin.ext (by
    match a with
    | ⟨0, _⟩ => exact lhs_gates_0 _ _
    | ⟨1, _⟩ => exact (lhs_gates_1 _ _).trans hk)
  have er : dot_S128x1024_S1024x4096_S128x4096_1_0_0_1_n_n.rhsIdx (ix2 p n) ((contrEquiv1 dot_S128x1024_S1024x4096_S128x4096_1_0_0_1_n_n 1024 rfl rfl).symm k) = ix2 k n := funext fun a => Fin.ext (by
    match a with
    | ⟨0, _⟩ => exact (rhs_gates_0 _ _).trans hk
    | ⟨1, _⟩ => exact rhs_gates_1 _ _)
  rw [el, er]

/-- Row axis of the left operand's index: the output row. -/
theorem lhs_pred_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
/-- Column axis of the left operand's index: the contraction coordinate. -/
theorem lhs_pred_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
/-- Row axis of the right operand's index: the contraction coordinate. -/
theorem rhs_pred_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
/-- Column axis of the right operand's index: the output column. -/
theorem rhs_pred_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- The same for the 512 prediction columns. -/
theorem matmul_pred_apply (a : FVec Ideal S128x1024 .bf16) (b : FVec Ideal S1024x512 .bf16) (p : Fin 128) (n : Fin 512) :
    matmul (F := Ideal) dot_S128x1024_S1024x512_S128x512_1_0_0_1_n_n none a b (constant (F := Ideal) S128x512 .f32 0x00000000#32) (ix2 p n)
      = ∑ k : Fin 1024, a (ix2 p k) * b (ix2 k n) := by
  simp only [matmul]
  rw [Ideal.matmul_constant_zero_apply, ← Equiv.sum_comp (contrEquiv1 dot_S128x1024_S1024x512_S128x512_1_0_0_1_n_n 1024 rfl rfl).symm]
  refine Finset.sum_congr rfl fun k _ => ?_
  have hk := contrEquiv1_symm_val dot_S128x1024_S1024x512_S128x512_1_0_0_1_n_n 1024 rfl rfl k
  have el : dot_S128x1024_S1024x512_S128x512_1_0_0_1_n_n.lhsIdx (ix2 p n) ((contrEquiv1 dot_S128x1024_S1024x512_S128x512_1_0_0_1_n_n 1024 rfl rfl).symm k) = ix2 p k := funext fun a => Fin.ext (by
    match a with
    | ⟨0, _⟩ => exact lhs_pred_0 _ _
    | ⟨1, _⟩ => exact (lhs_pred_1 _ _).trans hk)
  have er : dot_S128x1024_S1024x512_S128x512_1_0_0_1_n_n.rhsIdx (ix2 p n) ((contrEquiv1 dot_S128x1024_S1024x512_S128x512_1_0_0_1_n_n 1024 rfl rfl).symm k) = ix2 k n := funext fun a => Fin.ext (by
    match a with
    | ⟨0, _⟩ => exact (rhs_pred_0 _ _).trans hk
    | ⟨1, _⟩ => exact rhs_pred_1 _ _)
  rw [el, er]

/-- A bias of 4096 entries laid out as one row and repeated over the 128 rows reads entry n at every row. -/
theorem bias_gates_apply (b : S4096.Idx → EReal) (h1 : S4096.ShapeCasts S1x4096) (h2 : S1x4096.Broadcasts S128x4096)
    (p : Fin 128) (n : Fin 4096) :
    broadcastTo S128x4096 (shapeCast S1x4096 b h1) h2 (ix2 p n) = b (ix1 n) :=
  (broadcastTo_1b_ab_apply _ h2 p n).trans (shapeCast_a_1a_apply b h1 0 n)

/-- The same for a bias of 512 entries. -/
theorem bias_pred_apply (b : S512.Idx → EReal) (h1 : S512.ShapeCasts S1x512) (h2 : S1x512.Broadcasts S128x512)
    (p : Fin 128) (n : Fin 512) :
    broadcastTo S128x512 (shapeCast S1x512 b h1) h2 (ix2 p n) = b (ix1 n) :=
  (broadcastTo_1b_ab_apply _ h2 p n).trans (shapeCast_a_1a_apply b h1 0 n)

/-- The 1024 columns cut from column o = 1024·g on read, at column j, column 1024·g + j of the 4096. -/
theorem gate_apply (o g : Nat) (hg : g < 4) (ho : o = 1024 * g) (X : S128x4096.Idx → EReal)
    (h : S128x4096.Slices ![0, o] S128x1024) (p : Fin 128) (j : Fin 1024) :
    extractStridedSlice S128x1024 ![0, o] X h (ix2 p j) = X (ix2 p (col g hg j)) :=
  slice2_axis1_apply o X h p j (col g hg j) (by show 1024 * g + j.val = o + j.val; omega)

theorem pay2_apply (p : Fin 128) (n : Fin 4096) :
    k0_pay2 (F := Ideal) v0 v2 v4 v7 v11 (ix2 p n) = pre v0 v2 v4 v7 v11 p n := by
  unfold k0_pay2 pre
  refine congrArg₂ (· + ·) (congrArg₂ (· + ·) ?_ ?_) ?_
  · rw [shapeCast_self]
    exact matmul_gates_apply _ _ p n
  · rw [shapeCast_self]
    exact matmul_gates_apply _ _ p n
  · rw [shapeCast_self]
    exact bias_gates_apply v11 _ _ p n

/-- The block's new cell state. -/
def cellB (p : Fin 128) (j : Fin 1024) : EReal :=
  Ideal.logistic (pre v0 v2 v4 v7 v11 p (col 1 (by omega) j)) * v24 (ix2 p j)
    + Ideal.logistic (pre v0 v2 v4 v7 v11 p (col 0 (by omega) j)) * Ideal.tanh (pre v0 v2 v4 v7 v11 p (col 3 (by omega) j))

theorem pay3_apply (p : Fin 128) (j : Fin 1024) :
    k0_pay3 (F := Ideal) v0 v2 v4 v7 v11 v24 (ix2 p j) = cellB v0 v2 v4 v7 v11 v24 p j := by
  have e0 := (gate_apply 0 0 (by omega) (by omega) (k0_pay2 (F := Ideal) v0 v2 v4 v7 v11) slices_S128x4096_o0_0_S128x1024 p j).trans
    (pay2_apply v0 v2 v4 v7 v11 p (col 0 (by omega) j))
  have e1 := (gate_apply 1024 1 (by omega) (by omega) (k0_pay2 (F := Ideal) v0 v2 v4 v7 v11) slices_S128x4096_o0_1024_S128x1024 p j).trans
    (pay2_apply v0 v2 v4 v7 v11 p (col 1 (by omega) j))
  have e3 := (gate_apply 3072 3 (by omega) (by omega) (k0_pay2 (F := Ideal) v0 v2 v4 v7 v11) slices_S128x4096_o0_3072_S128x1024 p j).trans
    (pay2_apply v0 v2 v4 v7 v11 p (col 3 (by omega) j))
  unfold k0_pay3 cellB
  exact congrArg₂ (· + ·) (congrArg (fun x => Ideal.logistic x * v24 (ix2 p j)) e1)
    (congrArg₂ (fun x y => Ideal.logistic x * Ideal.tanh y) e0 e3)

/-- The block's new hidden state. -/
def hiddenB (p : Fin 128) (j : Fin 1024) : EReal :=
  Ideal.logistic (pre v0 v2 v4 v7 v11 p (col 2 (by omega) j)) * Ideal.tanh (cellB v0 v2 v4 v7 v11 v24 p j)

theorem pay4_apply (p : Fin 128) (j : Fin 1024) :
    k0_pay4 (F := Ideal) v0 v2 v4 v7 v11 v24 (ix2 p j) = hiddenB v0 v2 v4 v7 v11 v24 p j := by
  have e2 := (gate_apply 2048 2 (by omega) (by omega) (k0_pay2 (F := Ideal) v0 v2 v4 v7 v11) slices_S128x4096_o0_2048_S128x1024 p j).trans
    (pay2_apply v0 v2 v4 v7 v11 p (col 2 (by omega) j))
  unfold k0_pay4 hiddenB
  exact congrArg₂ (fun x y => Ideal.logistic x * Ideal.tanh y) e2 (pay3_apply v0 v2 v4 v7 v11 v24 p j)

/-- The block's prediction. -/
def predB (p : Fin 128) (n : Fin 512) : EReal :=
  (∑ k : Fin 1024, hiddenB v0 v2 v4 v7 v11 v24 p k * v33 (ix2 k n)) + v36 (ix1 n)

theorem pay15_apply (p : Fin 128) (n : Fin 512) :
    k0_pay1 (F := Ideal) (k0_pay5 (F := Ideal) v0 v2 v4 v7 v11 v24 v33) v36 (ix2 p n) = predB v0 v2 v4 v7 v11 v24 v33 v36 p n := by
  unfold k0_pay1 k0_pay5 predB
  refine congrArg₂ (· + ·) ?_ ?_
  · rw [shapeCast_self]
    refine (matmul_pred_apply _ _ p n).trans (Finset.sum_congr rfl fun k _ => ?_)
    exact congrArg (· * v33 (ix2 k n)) (pay4_apply v0 v2 v4 v7 v11 v24 p k)
  · exact bias_pred_apply v36 _ _ p n

end Cert.KernelIdeal.Block

end
-- ==== Proof.Spec.lean ====
/-
  One recurrent cell step with four gates and a linear read-out, as functions of the thirteen argument arrays.

  For a gate with weight W (2048 rows: the first 1024 meet the input x, the last 1024 the previous hidden
  state h) and bias b, the pre-activation at batch row r and unit j is
      gate r j = (Σ_{k<1024} x[r,k] · W[k,j] + Σ_{k<1024} h[r,k] · W[1024+k,j]) + b[j].
  With σ the logistic function, the new cell state is  σ(gate_f) · c + σ(gate_i) · tanh(gate_c),  the new hidden
  state  σ(gate_o) · tanh(new cell state),  and the prediction  Σ_k hidden[r,k] · Wy[k,n] + by[n].
  All arithmetic is on the extended reals. Two laws are used to meet this form from the reference's text: a sum
  over 2048 indices is the sum over the lower half plus the sum over the upper half (addition of extended reals
  is commutative and associative, so no finiteness is needed), and 1 / (1 + e^(-x)) is the logistic function at
  every extended real.
-/
import Idealize.ShloMosaic.PureOps.Ideal
import Idealize.ShloMosaic.Lib.ValueIdx
import Idealize.ShloMosaic.Lib.IdealHost

noncomputable section

namespace Cert.Cell

open Idealize.ShloMosaic Idealize.ShloMosaic.ValueIdx

/-- Batch arrays (input, hidden state, cell state), gate weights, gate biases, read-out weight and bias, prediction. -/
abbrev Batch := (⟨2, ![8192, 1024]⟩ : Shape).Idx → EReal
abbrev GateW := (⟨2, ![2048, 1024]⟩ : Shape).Idx → EReal
abbrev GateB := (⟨1, ![1024]⟩ : Shape).Idx → EReal
abbrev OutW := (⟨2, ![1024, 512]⟩ : Shape).Idx → EReal
abbrev OutB := (⟨1, ![512]⟩ : Shape).Idx → EReal
abbrev Pred := (⟨2, ![8192, 512]⟩ : Shape).Idx → EReal

/-- Row k of the rows that meet the input, and row k of the rows that meet the hidden state. -/
abbrev lo (k : Fin 1024) : Fin 2048 := ⟨k.val, by have := k.isLt; omega⟩
abbrev hi (k : Fin 1024) : Fin 2048 := ⟨1024 + k.val, by have := k.isLt; omega⟩

/-- A gate's pre-activation. -/
def gate (x h : Batch) (W : GateW) (b : GateB) (r : Fin 8192) (j : Fin 1024) : EReal :=
  ((∑ k : Fin 1024, x (ix2 r k) * W (ix2 (lo k) j)) + ∑ k : Fin 1024, h (ix2 r k) * W (ix2 (hi k) j)) + b (ix1 j)

/-- The new cell state at a row and unit. -/
def cellAt (x h c : Batch) (Wi : GateW) (bi : GateB) (Wf : GateW) (bf : GateB) (Wc : GateW) (bc : GateB)
    (r : Fin 8192) (j : Fin 1024) : EReal :=
  Ideal.logistic (gate x h Wf bf r j) * c (ix2 r j) + Ideal.logistic (gate x h Wi bi r j) * Ideal.tanh (gate x h Wc bc r j)

/-- The new hidden state at a row and unit. -/
def hiddenAt (x h c : Batch) (Wi : GateW) (bi : GateB) (Wf : GateW) (bf : GateB) (Wo : GateW) (bo : GateB)
    (Wc : GateW) (bc : GateB) (r : Fin 8192) (j : Fin 1024) : EReal :=
  Ideal.logistic (gate x h Wo bo r j) * Ideal.tanh (cellAt x h c Wi bi Wf bf Wc bc r j)

/-- The prediction at a row and output. -/
def predAt (x h c : Batch) (Wi : GateW) (bi : GateB) (Wf : GateW) (bf : GateB) (Wo : GateW) (bo : GateB)
    (Wc : GateW) (bc : GateB) (Wy : OutW) (by_ : OutB) (r : Fin 8192) (n : Fin 512) : EReal :=
  (∑ k : Fin 1024, hiddenAt x h c Wi bi Wf bf Wo bo Wc bc r k * Wy (ix2 k n)) + by_ (ix1 n)

/-- The three result arrays. -/
def cellArr (x h c : Batch) (Wi : GateW) (bi : GateB) (Wf : GateW) (bf : GateB) (Wo : GateW) (bo : GateB)
    (Wc : GateW) (bc : GateB) : Batch := fun i => cellAt x h c Wi bi Wf bf Wc bc (i 0) (i 1)
def hiddenArr (x h c : Batch) (Wi : GateW) (bi : GateB) (Wf : GateW) (bf : GateB) (Wo : GateW) (bo : GateB)
    (Wc : GateW) (bc : GateB) : Batch := fun i => hiddenAt x h c Wi bi Wf bf Wo bo Wc bc (i 0) (i 1)
def predArr (x h c : Batch) (Wi : GateW) (bi : GateB) (Wf : GateW) (bf : GateB) (Wo : GateW) (bo : GateB)
    (Wc : GateW) (bc : GateB) (Wy : OutW) (by_ : OutB) : Pred :=
  fun i => predAt x h c Wi bi Wf bf Wo bo Wc bc Wy by_ (i 0) (i 1)

/-- A sum over 2048 indices is the sum over the lower 1024 plus the sum over the upper 1024. -/
theorem sum_split {M : Type} [AddCommMonoid M] (f : Fin 2048 → M) :
    ∑ k : Fin 2048, f k = (∑ k : Fin 1024, f (lo k)) + ∑ k : Fin 1024, f (hi k) := by
  have e := Fin.sum_univ_add (M := M) (a := 1024) (b := 1024) (fun k : Fin (1024 + 1024) => f k)
  exact e

/-- One over one plus e^(-x), the ones spelt as the single-precision pattern of one, is the logistic function. -/
theorem one_div_one_add_exp_neg (x : EReal) :
    Ideal.div (Ideal.ofBits .f32 0x3F800000#32) (Ideal.ofBits .f32 0x3F800000#32 + Ideal.exp (-x)) = Ideal.logistic x := by
  rw [Ideal.ofBits_one_f32]; rfl

end Cert.Cell

end
-- ==== Proof.LibConcat4.lean ====
/-
  Four arrays of one shape laid side by side along an axis, read at an index: the position along that axis,
  b·g + j with j < b, names piece g and the position j inside it; the other coordinates are unchanged. Stated
  for rank two along the last axis and for rank one.
-/
import Idealize.ShloMosaic.Lib.Pipeline.Value
import Idealize.ShloMosaic.Lib.ValueIdx

namespace Cert.Lib

open Idealize.ShloMosaic Idealize.ShloMosaic.ValueIdx

/-- [a, b] ×4 → [a, c] along the columns: column `b·g + j` of the result is column `j` of piece `g`. -/
theorem concat4_cols_apply {α : Type} {a b c : Nat} (u0 u1 u2 u3 : (⟨2, ![a, b]⟩ : Shape).Idx → α)
    (h : Shape.Concatenates [(⟨2, ![a, b]⟩ : Shape), (⟨2, ![a, b]⟩ : Shape), (⟨2, ![a, b]⟩ : Shape), (⟨2, ![a, b]⟩ : Shape)] (⟨2, ![a, c]⟩ : Shape) 1)
    (r : Fin a) (j : Fin b) (n : Fin c) :
    (n.val = j.val → concatenate (⟨2, ![a, c]⟩ : Shape) 1 [⟨(⟨2, ![a, b]⟩ : Shape), u0⟩, ⟨(⟨2, ![a, b]⟩ : Shape), u1⟩, ⟨(⟨2, ![a, b]⟩ : Shape), u2⟩, ⟨(⟨2, ![a, b]⟩ : Shape), u3⟩] h (ix2 r n) = u0 (ix2 r j))
    ∧ (n.val = b + j.val → concatenate (⟨2, ![a, c]⟩ : Shape) 1 [⟨(⟨2, ![a, b]⟩ : Shape), u0⟩, ⟨(⟨2, ![a, b]⟩ : Shape), u1⟩, ⟨(⟨2, ![a, b]⟩ : Shape), u2⟩, ⟨(⟨2, ![a, b]⟩ : Shape), u3⟩] h (ix2 r n) = u1 (ix2 r j))
    ∧ (n.val = b + b + j.val → concatenate (⟨2, ![a, c]⟩ : Shape) 1 [⟨(⟨2, ![a, b]⟩ : Shape), u0⟩, ⟨(⟨2, ![a, b]⟩ : Shape), u1⟩, ⟨(⟨2, ![a, b]⟩ : Shape), u2⟩, ⟨(⟨2, ![a, b]⟩ : Shape), u3⟩] h (ix2 r n) = u2 (ix2 r j))
    ∧ (n.val = b + b + b + j.val → concatenate (⟨2, ![a, c]⟩ : Shape) 1 [⟨(⟨2, ![a, b]⟩ : Shape), u0⟩, ⟨(⟨2, ![a, b]⟩ : Shape), u1⟩, ⟨(⟨2, ![a, b]⟩ : Shape), u2⟩, ⟨(⟨2, ![a, b]⟩ : Shape), u3⟩] h (ix2 r n) = u3 (ix2 r j)) := by
  have hoff : ∀ bb : Fin 2, bb.cast (rfl : (⟨2, ![a, b]⟩ : Shape).rank = (⟨2, ![a, c]⟩ : Shape).rank) ≠ (1 : Fin 2) →
      ((ix2 r j : (⟨2, ![a, b]⟩ : Shape).Idx) bb).val = ((ix2 r n : (⟨2, ![a, c]⟩ : Shape).Idx) (bb.cast rfl)).val := by
    intro bb hb
    match bb with
    | ⟨0, _⟩ => rfl
    | ⟨1, _⟩ => exact absurd rfl hb
  refine ⟨fun e => ?_, fun e => ?_, fun e => ?_, fun e => ?_⟩
  · exact concatenate_apply_piece 1 ([⟨(⟨2, ![a, b]⟩ : Shape), u0⟩, ⟨(⟨2, ![a, b]⟩ : Shape), u1⟩, ⟨(⟨2, ![a, b]⟩ : Shape), u2⟩, ⟨(⟨2, ![a, b]⟩ : Shape), u3⟩] : List ((s : Shape) × (s.Idx → α))) h (ix2 r n) 0 (by simp) (⟨2, ![a, b]⟩ : Shape) u0 rfl rfl 0 rfl (ix2 r j) hoff (by show 0 + j.val = n.val; omega)
  · exact concatenate_apply_piece 1 ([⟨(⟨2, ![a, b]⟩ : Shape), u0⟩, ⟨(⟨2, ![a, b]⟩ : Shape), u1⟩, ⟨(⟨2, ![a, b]⟩ : Shape), u2⟩, ⟨(⟨2, ![a, b]⟩ : Shape), u3⟩] : List ((s : Shape) × (s.Idx → α))) h (ix2 r n) 1 (by simp) (⟨2, ![a, b]⟩ : Shape) u1 rfl rfl b (by simp) (ix2 r j) hoff (by show b + j.val = n.val; omega)
  · exact concatenate_apply_piece 1 ([⟨(⟨2, ![a, b]⟩ : Shape), u0⟩, ⟨(⟨2, ![a, b]⟩ : Shape), u1⟩, ⟨(⟨2, ![a, b]⟩ : Shape), u2⟩, ⟨(⟨2, ![a, b]⟩ : Shape), u3⟩] : List ((s : Shape) × (s.Idx → α))) h (ix2 r n) 2 (by simp) (⟨2, ![a, b]⟩ : Shape) u2 rfl rfl (b + b) (by simp) (ix2 r j) hoff (by show b + b + j.val = n.val; omega)
  · exact concatenate_apply_piece 1 ([⟨(⟨2, ![a, b]⟩ : Shape), u0⟩, ⟨(⟨2, ![a, b]⟩ : Shape), u1⟩, ⟨(⟨2, ![a, b]⟩ : Shape), u2⟩, ⟨(⟨2, ![a, b]⟩ : Shape), u3⟩] : List ((s : Shape) × (s.Idx → α))) h (ix2 r n) 3 (by simp) (⟨2, ![a, b]⟩ : Shape) u3 rfl rfl (b + b + b) (by simp; omega) (ix2 r j) hoff (by show b + b + b + j.val = n.val; omega)

/-- [b] ×4 → [c]: entry `b·g + j` of the result is entry `j` of piece `g`. -/
theorem concat4_vec_apply {α : Type} {b c : Nat} (u0 u1 u2 u3 : (⟨1, ![b]⟩ : Shape).Idx → α)
    (h : Shape.Concatenates [(⟨1, ![b]⟩ : Shape), (⟨1, ![b]⟩ : Shape), (⟨1, ![b]⟩ : Shape), (⟨1, ![b]⟩ : Shape)] (⟨1, ![c]⟩ : Shape) 0)
    (j : Fin b) (n : Fin c) :
    (n.val = j.val → concatenate (⟨1, ![c]⟩ : Shape) 0 [⟨(⟨1, ![b]⟩ : Shape), u0⟩, ⟨(⟨1, ![b]⟩ : Shape), u1⟩, ⟨(⟨1, ![b]⟩ : Shape), u2⟩, ⟨(⟨1, ![b]⟩ : Shape), u3⟩] h (ix1 n) = u0 (ix1 j))
    ∧ (n.val = b + j.val → concatenate (⟨1, ![c]⟩ : Shape) 0 [⟨(⟨1, ![b]⟩ : Shape), u0⟩, ⟨(⟨1, ![b]⟩ : Shape), u1⟩, ⟨(⟨1, ![b]⟩ : Shape), u2⟩, ⟨(⟨1, ![b]⟩ : Shape), u3⟩] h (ix1 n) = u1 (ix1 j))
    ∧ (n.val = b + b + j.val → concatenate (⟨1, ![c]⟩ : Shape) 0 [⟨(⟨1, ![b]⟩ : Shape), u0⟩, ⟨(⟨1, ![b]⟩ : Shape), u1⟩, ⟨(⟨1, ![b]⟩ : Shape), u2⟩, ⟨(⟨1, ![b]⟩ : Shape), u3⟩] h (ix1 n) = u2 (ix1 j))
    ∧ (n.val = b + b + b + j.val → concatenate (⟨1, ![c]⟩ : Shape) 0 [⟨(⟨1, ![b]⟩ : Shape), u0⟩, ⟨(⟨1, ![b]⟩ : Shape), u1⟩, ⟨(⟨1, ![b]⟩ : Shape), u2⟩, ⟨(⟨1, ![b]⟩ : Shape), u3⟩] h (ix1 n) = u3 (ix1 j)) := by
  have hoff : ∀ bb : Fin 1, bb.cast (rfl : (⟨1, ![b]⟩ : Shape).rank = (⟨1, ![c]⟩ : Shape).rank) ≠ (0 : Fin 1) →
      ((ix1 j : (⟨1, ![b]⟩ : Shape).Idx) bb).val = ((ix1 n : (⟨1, ![c]⟩ : Shape).Idx) (bb.cast rfl)).val := by
    intro bb hb
    match bb with
    | ⟨0, _⟩ => exact absurd rfl hb
  refine ⟨fun e => ?_, fun e => ?_, fun e => ?_, fun e => ?_⟩
  · exact concatenate_apply_piece 0 ([⟨(⟨1, ![b]⟩ : Shape), u0⟩, ⟨(⟨1, ![b]⟩ : Shape), u1⟩, ⟨(⟨1, ![b]⟩ : Shape), u2⟩, ⟨(⟨1, ![b]⟩ : Shape), u3⟩] : List ((s : Shape) × (s.Idx → α))) h (ix1 n) 0 (by simp) (⟨1, ![b]⟩ : Shape) u0 rfl rfl 0 rfl (ix1 j) hoff (by show 0 + j.val = n.val; omega)
  · exact concatenate_apply_piece 0 ([⟨(⟨1, ![b]⟩ : Shape), u0⟩, ⟨(⟨1, ![b]⟩ : Shape), u1⟩, ⟨(⟨1, ![b]⟩ : Shape), u2⟩, ⟨(⟨1, ![b]⟩ : Shape), u3⟩] : List ((s : Shape) × (s.Idx → α))) h (ix1 n) 1 (by simp) (⟨1, ![b]⟩ : Shape) u1 rfl rfl b (by simp) (ix1 j) hoff (by show b + j.val = n.val; omega)
  · exact concatenate_apply_piece 0 ([⟨(⟨1, ![b]⟩ : Shape), u0⟩, ⟨(⟨1, ![b]⟩ : Shape), u1⟩, ⟨(⟨1, ![b]⟩ : Shape), u2⟩, ⟨(⟨1, ![b]⟩ : Shape), u3⟩] : List ((s : Shape) × (s.Idx → α))) h (ix1 n) 2 (by simp) (⟨1, ![b]⟩ : Shape) u2 rfl rfl (b + b) (by simp) (ix1 j) hoff (by show b + b + j.val = n.val; omega)
  · exact concatenate_apply_piece 0 ([⟨(⟨1, ![b]⟩ : Shape), u0⟩, ⟨(⟨1, ![b]⟩ : Shape), u1⟩, ⟨(⟨1, ![b]⟩ : Shape), u2⟩, ⟨(⟨1, ![b]⟩ : Shape), u3⟩] : List ((s : Shape) × (s.Idx → α))) h (ix1 n) 3 (by simp) (⟨1, ![b]⟩ : Shape) u3 rfl rfl (b + b + b) (by simp; omega) (ix1 j) hoff (by show b + b + b + j.val = n.val; omega)

end Cert.Lib
-- ==== Proof.KernelHost.lean ====
/-
  What the region finds in the four arrays the host operations wrote, read at an index. The input-row halves
  (rows 0 … 1023) of the four gate weights are laid side by side into a [1024, 4096] array, the state-row halves
  (rows 1024 … 2047) likewise, the four biases end to end into [4096], and the read-out weight is kept as it
  is; narrowing to the shorter float format does nothing to an extended real. So column 1024·g + j of either
  weight array is column j of gate g's weight, and entry 1024·g + j of the bias array is entry j of gate g's bias.
-/
import proofs.«128882_j37778532335717_1_alg».proof.Proof.KernelIdealFrame
import proofs.«128882_j37778532335717_1_alg».proof.Proof.Spec
import Idealize.ShloMosaic.Lib.StableHlo.Run
import Idealize.ShloMosaic.Lib.Pipeline.Value
import Idealize.ShloMosaic.Lib.ValueIdx
import proofs.«128882_j37778532335717_1_alg».proof.Proof.LibConcat4

noncomputable section
namespace Cert.KernelIdeal.Host
open Cert.KernelIdeal Cert.KernelIdeal.Gen Cert.KernelIdeal.Fr
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The input-row halves of the four gate weights side by side, as the region finds them. -/
theorem V_v5 (c : Dev nD) : (V m c main_v5 : S1024x4096.Idx → EReal) =
    truncf (F := Ideal) .bf16 (concatenate S1024x4096 1 [⟨S1024x1024, extractStridedSlice S1024x1024 ![0, 0] (m ((c : Thread nD τ).loc main_arg3)) slices_S2048x1024_S1024x1024_0_0⟩, ⟨S1024x1024, extractStridedSlice S1024x1024 ![0, 0] (m ((c : Thread nD τ).loc main_arg5)) slices_S2048x1024_S1024x1024_0_0⟩, ⟨S1024x1024, extractStridedSlice S1024x1024 ![0, 0] (m ((c : Thread nD τ).loc main_arg7)) slices_S2048x1024_S1024x1024_0_0⟩, ⟨S1024x1024, extractStridedSlice S1024x1024 ![0, 0] (m ((c : Thread nD τ).loc main_arg9)) slices_S2048x1024_S1024x1024_0_0⟩] concatenates_S1024x1024_S1024x1024_S1024x1024_S1024x1024_S1024x4096_d1) bitsLt_bf16_f32 := by
  dsimp only [V, hostOps0]; after_results_simp <;> rfl

/-- The state-row halves of the four gate weights side by side. -/
theorem V_v11 (c : Dev nD) : (V m c main_v11 : S1024x4096.Idx → EReal) =
    truncf (F := Ideal) .bf16 (concatenate S1024x4096 1 [⟨S1024x1024, extractStridedSlice S1024x1024 ![1024, 0] (m ((c : Thread nD τ).loc main_arg3)) slices_S2048x1024_S1024x1024_1024_0⟩, ⟨S1024x1024, extractStridedSlice S1024x1024 ![1024, 0] (m ((c : Thread nD τ).loc main_arg5)) slices_S2048x1024_S1024x1024_1024_0⟩, ⟨S1024x1024, extractStridedSlice S1024x1024 ![1024, 0] (m ((c : Thread nD τ).loc main_arg7)) slices_S2048x1024_S1024x1024_1024_0⟩, ⟨S1024x1024, extractStridedSlice S1024x1024 ![1024, 0] (m ((c : Thread nD τ).loc main_arg9)) slices_S2048x1024_S1024x1024_1024_0⟩] concatenates_S1024x1024_S1024x1024_S1024x1024_S1024x1024_S1024x4096_d1) bitsLt_bf16_f32 := by
  dsimp only [V, hostOps0]; after_results_simp <;> rfl

/-- The four gate biases end to end. -/
theorem V_v12 (c : Dev nD) : (V m c main_v12 : S4096.Idx → EReal) =
    concatenate S4096 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩] concatenates_S1024_S1024_S1024_S1024_S4096_d0 := by
  dsimp only [V, hostOps0]; after_results_simp <;> rfl

/-- The read-out weight, narrowed. -/
theorem V_v13 (c : Dev nD) : (V m c main_v13 : S1024x512.Idx → EReal) = truncf (F := Ideal) .bf16 (m ((c : Thread nD τ).loc main_arg11)) bitsLt_bf16_f32 := by
  dsimp only [V, hostOps0]; after_results_simp <;> rfl

/-- Column 1024·0 + j of the input-row weights is column j of the input gate's weight, rows 0 … 1023. -/
theorem wx_at0 (c : Dev nD) (k j : Fin 1024) (n : Fin 4096) (hn : n.val = 1024 * 0 + j.val) :
    V m c main_v5 (ix2 k n) = m ((c : Thread nD τ).loc main_arg3) (ix2 (Cert.Cell.lo k) j) := by
  rw [V_v5]
  refine ((Cert.Lib.concat4_cols_apply _ _ _ _ concatenates_S1024x1024_S1024x1024_S1024x1024_S1024x1024_S1024x4096_d1 k j n).1 (by omega)).trans ?_
  exact extractStridedSlice_apply _ _ _ _ _ (fun a => by
    match a with
    | ⟨0, _⟩ => show k.val = 0 + k.val; omega
    | ⟨1, _⟩ => show j.val = 0 + j.val; omega)

/-- The same column of the state-row weights is column j of the input gate's weight, rows 1024 … 2047. -/
theorem wh_at0 (c : Dev nD) (k j : Fin 1024) (n : Fin 4096) (hn : n.val = 1024 * 0 + j.val) :
    V m c main_v11 (ix2 k n) = m ((c : Thread nD τ).loc main_arg3) (ix2 (Cert.Cell.hi k) j) := by
  rw [V_v11]
  refine ((Cert.Lib.concat4_cols_apply _ _ _ _ concatenates_S1024x1024_S1024x1024_S1024x1024_S1024x1024_S1024x4096_d1 k j n).1 (by omega)).trans ?_
  exact extractStridedSlice_apply _ _ _ _ _ (fun a => by
    match a with
    | ⟨0, _⟩ => show 1024 + k.val = 1024 + k.val; rfl
    | ⟨1, _⟩ => show j.val = 0 + j.val; omega)

/-- Entry 1024·0 + j of the biases is entry j of the input gate's bias. -/
theorem b_at0 (c : Dev nD) (j : Fin 1024) (n : Fin 4096) (hn : n.val = 1024 * 0 + j.val) :
    V m c main_v12 (ix1 n) = m ((c : Thread nD τ).loc main_arg4) (ix1 j) := by
  rw [V_v12]
  exact (Cert.Lib.concat4_vec_apply _ _ _ _ concatenates_S1024_S1024_S1024_S1024_S4096_d0 j n).1 (by omega)

/-- Column 1024·1 + j of the input-row weights is column j of the forget gate's weight, rows 0 … 1023. -/
theorem wx_at1 (c : Dev nD) (k j : Fin 1024) (n : Fin 4096) (hn : n.val = 1024 * 1 + j.val) :
    V m c main_v5 (ix2 k n) = m ((c : Thread nD τ).loc main_arg5) (ix2 (Cert.Cell.lo k) j) := by
  rw [V_v5]
  refine ((Cert.Lib.concat4_cols_apply _ _ _ _ concatenates_S1024x1024_S1024x1024_S1024x1024_S1024x1024_S1024x4096_d1 k j n).2.1 (by omega)).trans ?_
  exact extractStridedSlice_apply _ _ _ _ _ (fun a => by
    match a with
    | ⟨0, _⟩ => show k.val = 0 + k.val; omega
    | ⟨1, _⟩ => show j.val = 0 + j.val; omega)

/-- The same column of the state-row weights is column j of the forget gate's weight, rows 1024 … 2047. -/
theorem wh_at1 (c : Dev nD) (k j : Fin 1024) (n : Fin 4096) (hn : n.val = 1024 * 1 + j.val) :
    V m c main_v11 (ix2 k n) = m ((c : Thread nD τ).loc main_arg5) (ix2 (Cert.Cell.hi k) j) := by
  rw [V_v11]
  refine ((Cert.Lib.concat4_cols_apply _ _ _ _ concatenates_S1024x1024_S1024x1024_S1024x1024_S1024x1024_S1024x4096_d1 k j n).2.1 (by omega)).trans ?_
  exact extractStridedSlice_apply _ _ _ _ _ (fun a => by
    match a with
    | ⟨0, _⟩ => show 1024 + k.val = 1024 + k.val; rfl
    | ⟨1, _⟩ => show j.val = 0 + j.val; omega)

/-- Entry 1024·1 + j of the biases is entry j of the forget gate's bias. -/
theorem b_at1 (c : Dev nD) (j : Fin 1024) (n : Fin 4096) (hn : n.val = 1024 * 1 + j.val) :
    V m c main_v12 (ix1 n) = m ((c : Thread nD τ).loc main_arg6) (ix1 j) := by
  rw [V_v12]
  exact (Cert.Lib.concat4_vec_apply _ _ _ _ concatenates_S1024_S1024_S1024_S1024_S4096_d0 j n).2.1 (by omega)

/-- Column 1024·2 + j of the input-row weights is column j of the output gate's weight, rows 0 … 1023. -/
theorem wx_at2 (c : Dev nD) (k j : Fin 1024) (n : Fin 4096) (hn : n.val = 1024 * 2 + j.val) :
    V m c main_v5 (ix2 k n) = m ((c : Thread nD τ).loc main_arg7) (ix2 (Cert.Cell.lo k) j) := by
  rw [V_v5]
  refine ((Cert.Lib.concat4_cols_apply _ _ _ _ concatenates_S1024x1024_S1024x1024_S1024x1024_S1024x1024_S1024x4096_d1 k j n).2.2.1 (by omega)).trans ?_
  exact extractStridedSlice_apply _ _ _ _ _ (fun a => by
    match a with
    | ⟨0, _⟩ => show k.val = 0 + k.val; omega
    | ⟨1, _⟩ => show j.val = 0 + j.val; omega)

/-- The same column of the state-row weights is column j of the output gate's weight, rows 1024 … 2047. -/
theorem wh_at2 (c : Dev nD) (k j : Fin 1024) (n : Fin 4096) (hn : n.val = 1024 * 2 + j.val) :
    V m c main_v11 (ix2 k n) = m ((c : Thread nD τ).loc main_arg7) (ix2 (Cert.Cell.hi k) j) := by
  rw [V_v11]
  refine ((Cert.Lib.concat4_cols_apply _ _ _ _ concatenates_S1024x1024_S1024x1024_S1024x1024_S1024x1024_S1024x4096_d1 k j n).2.2.1 (by omega)).trans ?_
  exact extractStridedSlice_apply _ _ _ _ _ (fun a => by
    match a with
    | ⟨0, _⟩ => show 1024 + k.val = 1024 + k.val; rfl
    | ⟨1, _⟩ => show j.val = 0 + j.val; omega)

/-- Entry 1024·2 + j of the biases is entry j of the output gate's bias. -/
theorem b_at2 (c : Dev nD) (j : Fin 1024) (n : Fin 4096) (hn : n.val = 1024 * 2 + j.val) :
    V m c main_v12 (ix1 n) = m ((c : Thread nD τ).loc main_arg8) (ix1 j) := by
  rw [V_v12]
  exact (Cert.Lib.concat4_vec_apply _ _ _ _ concatenates_S1024_S1024_S1024_S1024_S4096_d0 j n).2.2.1 (by omega)

/-- Column 1024·3 + j of the input-row weights is column j of the candidate gate's weight, rows 0 … 1023. -/
theorem wx_at3 (c : Dev nD) (k j : Fin 1024) (n : Fin 4096) (hn : n.val = 1024 * 3 + j.val) :
    V m c main_v5 (ix2 k n) = m ((c : Thread nD τ).loc main_arg9) (ix2 (Cert.Cell.lo k) j) := by
  rw [V_v5]
  refine ((Cert.Lib.concat4_cols_apply _ _ _ _ concatenates_S1024x1024_S1024x1024_S1024x1024_S1024x1024_S1024x4096_d1 k j n).2.2.2 (by omega)).trans ?_
  exact extractStridedSlice_apply _ _ _ _ _ (fun a => by
    match a with
    | ⟨0, _⟩ => show k.val = 0 + k.val; omega
    | ⟨1, _⟩ => show j.val = 0 + j.val; omega)

/-- The same column of the state-row weights is column j of the candidate gate's weight, rows 1024 … 2047. -/
theorem wh_at3 (c : Dev nD) (k j : Fin 1024) (n : Fin 4096) (hn : n.val = 1024 * 3 + j.val) :
    V m c main_v11 (ix2 k n) = m ((c : Thread nD τ).loc main_arg9) (ix2 (Cert.Cell.hi k) j) := by
  rw [V_v11]
  refine ((Cert.Lib.concat4_cols_apply _ _ _ _ concatenates_S1024x1024_S1024x1024_S1024x1024_S1024x1024_S1024x4096_d1 k j n).2.2.2 (by omega)).trans ?_
  exact extractStridedSlice_apply _ _ _ _ _ (fun a => by
    match a with
    | ⟨0, _⟩ => show 1024 + k.val = 1024 + k.val; rfl
    | ⟨1, _⟩ => show j.val = 0 + j.val; omega)

/-- Entry 1024·3 + j of the biases is entry j of the candidate gate's bias. -/
theorem b_at3 (c : Dev nD) (j : Fin 1024) (n : Fin 4096) (hn : n.val = 1024 * 3 + j.val) :
    V m c main_v12 (ix1 n) = m ((c : Thread nD τ).loc main_arg10) (ix1 j) := by
  rw [V_v12]
  exact (Cert.Lib.concat4_vec_apply _ _ _ _ concatenates_S1024_S1024_S1024_S1024_S4096_d0 j n).2.2.2 (by omega)

/-- The read-out weight as the region finds it is the argument. -/
theorem wy_at (c : Dev nD) (k : Fin 1024) (n : Fin 512) :
    V m c main_v13 (ix2 k n) = m ((c : Thread nD τ).loc main_arg11) (ix2 k n) := by
  rw [V_v13]; rfl

end Cert.KernelIdeal.Host

end
-- ==== Proof.KernelValue.lean ====
/-
  The idealized kernel program's three result arrays after the run are the cell step's three arrays (Spec.lean).

  Block t of the pipeline holds batch rows 128 t … 128 t + 127 of the input, the hidden state and the cell state,
  and the whole of the five parameter arrays. The body's stored values at row p of the block are sums and
  products of those entries (KernelBlock.lean); the parameter arrays' entries are the arguments' (KernelHost.lean);
  so row p of block t is row 128 t + p of the specification. Rows 0 … 8191 are each in exactly the block
  r / 128, so the 64 write-backs fill each result array.
-/
import proofs.«128882_j37778532335717_1_alg».proof.Proof.KernelIdealFrame
import proofs.«128882_j37778532335717_1_alg».proof.Proof.KernelBlock
import proofs.«128882_j37778532335717_1_alg».proof.Proof.KernelHost
import proofs.«128882_j37778532335717_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the 64 grid points: a batch window's block index is the point, a parameter window's is zero -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx5 : ∀ t : Fin cfg0.N, win0_5.index t (0 : Fin 1) = 0 :=
  (by decide +kernel : ∀ t : Fin grid0.N, win0_5.index t (0 : Fin 1) = 0)
theorem idx7 : ∀ t : Fin cfg0.N, win0_7.index t (0 : Fin 1) = 0 :=
  (by decide +kernel : ∀ t : Fin grid0.N, win0_7.index t (0 : Fin 1) = 0)

theorem t_lt (t : Fin cfg0.N) : t.val < 64 := lt_of_lt_of_eq t.isLt (show cfg0.N = 64 from N_0)

/-- Row p of block t is batch row 128 t + p. -/
abbrev row (t : Fin cfg0.N) (p : Fin 128) : Fin 8192 := ⟨128 * t.val + p.val, by have := t_lt t; have := p.isLt; omega⟩

/-! ## The blocks read at an index -/

theorem blk0 (c : Dev nD) (t : Fin cfg0.N) (p : Fin 128) (k : Fin 1024) :
    iblk m c 0 t (ix2 p k) = (m ((c : Thread nD τ).loc main_arg0)) (ix2 (row t p) k) := by
  obtain ⟨e0, e1⟩ := idx0 t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 1024 + 1 * k.val = k.val; omega
theorem blk1 (c : Dev nD) (t : Fin cfg0.N) (p : Fin 128) (k : Fin 1024) :
    iblk m c 1 t (ix2 p k) = (m ((c : Thread nD τ).loc main_arg1)) (ix2 (row t p) k) := by
  obtain ⟨e0, e1⟩ := idx1 t
  show V m c main_arg1 (((cfg0.win 1).blk t).view.emb (ix2 p k)) = _
  rw [V_main_arg1]
  refine congrArg _ (funext fun a => Fin.ext ?_)
  match a with
  | ⟨0, _⟩ => show win0_1.index t (0 : Fin 2) * 128 + 1 * p.val = 128 * t.val + p.val; omega
  | ⟨1, _⟩ => show win0_1.index t (1 : Fin 2) * 1024 + 1 * k.val = k.val; omega
theorem blk2 (c : Dev nD) (t : Fin cfg0.N) (p : Fin 128) (k : Fin 1024) :
    iblk m c 2 t (ix2 p k) = (m ((c : Thread nD τ).loc main_arg2)) (ix2 (row t p) k) := by
  obtain ⟨e0, e1⟩ := idx2 t
  show V m c main_arg2 (((cfg0.win 2).blk t).view.emb (ix2 p k)) = _
  rw [V_main_arg2]
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 1024 + 1 * k.val = k.val; omega
theorem blk3 (c : Dev nD) (t : Fin cfg0.N) (k : Fin 1024) (n : Fin 4096) :
    iblk m c 3 t (ix2 k n) = V m c main_v5 (ix2 k n) := by
  obtain ⟨e0, e1⟩ := idx3 t
  show V m c main_v5 (((cfg0.win 3).blk t).view.emb (ix2 k n)) = _
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * n.val = n.val; omega
theorem blk4 (c : Dev nD) (t : Fin cfg0.N) (k : Fin 1024) (n : Fin 4096) :
    iblk m c 4 t (ix2 k n) = V m c main_v11 (ix2 k n) := by
  obtain ⟨e0, e1⟩ := idx4 t
  show V m c main_v11 (((cfg0.win 4).blk t).view.emb (ix2 k n)) = _
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * n.val = n.val; omega
theorem blk6 (c : Dev nD) (t : Fin cfg0.N) (k : Fin 1024) (n : Fin 512) :
    iblk m c 6 t (ix2 k n) = V m c main_v13 (ix2 k n) := by
  obtain ⟨e0, e1⟩ := idx6 t
  show V m c main_v13 (((cfg0.win 6).blk t).view.emb (ix2 k n)) = _
  refine congrArg _ (funext fun a => Fin.ext ?_)
  match a with
  | ⟨0, _⟩ => show win0_6.index t (0 : Fin 2) * 1024 + 1 * k.val = k.val; omega
  | ⟨1, _⟩ => show win0_6.index t (1 : Fin 2) * 512 + 1 * n.val = n.val; omega
theorem blk5 (c : Dev nD) (t : Fin cfg0.N) (n : Fin 4096) :
    iblk m c 5 t (ix1 n) = V m c main_v12 (ix1 n) := by
  have e0 := idx5 t
  show V m c main_v12 (((cfg0.win 5).blk t).view.emb (ix1 n)) = _
  refine congrArg _ (funext fun a => Fin.ext ?_)
  match a with
  | ⟨0, _⟩ => show win0_5.index t (0 : Fin 1) * 4096 + 1 * n.val = n.val; omega
theorem blk7 (c : Dev nD) (t : Fin cfg0.N) (n : Fin 512) :
    iblk m c 7 t (ix1 n) = V m c main_arg12 (ix1 n) := by
  have e0 := idx7 t
  show V m c main_arg12 (((cfg0.win 7).blk t).view.emb (ix1 n)) = _
  refine congrArg _ (funext fun a => Fin.ext ?_)
  match a with
  | ⟨0, _⟩ => show win0_7.index t (0 : Fin 1) * 512 + 1 * n.val = n.val; omega

/-! ## A block row's pre-activations are the specification's at that batch row -/

theorem pre_eq0 (c : Dev nD) (t : Fin cfg0.N) (p : Fin 128) (j : Fin 1024) :
    Block.pre (iblk m c 0 t) (iblk m c 1 t) (iblk m c 3 t) (iblk m c 4 t) (iblk m c 5 t) p (Block.col 0 (by omega) j)
      = Cert.Cell.gate (m ((c : Thread nD τ).loc main_arg0)) (m ((c : Thread nD τ).loc main_arg1)) (m ((c : Thread nD τ).loc main_arg3)) (m ((c : Thread nD τ).loc main_arg4)) (row t p) j := by
  unfold Block.pre Cert.Cell.gate
  congr 1
  · congr 1
    · exact Finset.sum_congr rfl fun k _ => by rw [blk0, blk3, Host.wx_at0 m c k j _ rfl]
    · exact Finset.sum_congr rfl fun k _ => by rw [blk1, blk4, Host.wh_at0 m c k j _ rfl]
  · rw [blk5, Host.b_at0 m c j _ rfl]
theorem pre_eq1 (c : Dev nD) (t : Fin cfg0.N) (p : Fin 128) (j : Fin 1024) :
    Block.pre (iblk m c 0 t) (iblk m c 1 t) (iblk m c 3 t) (iblk m c 4 t) (iblk m c 5 t) p (Block.col 1 (by omega) j)
      = Cert.Cell.gate (m ((c : Thread nD τ).loc main_arg0)) (m ((c : Thread nD τ).loc main_arg1)) (m ((c : Thread nD τ).loc main_arg5)) (m ((c : Thread nD τ).loc main_arg6)) (row t p) j := by
  unfold Block.pre Cert.Cell.gate
  congr 1
  · congr 1
    · exact Finset.sum_congr rfl fun k _ => by rw [blk0, blk3, Host.wx_at1 m c k j _ rfl]
    · exact Finset.sum_congr rfl fun k _ => by rw [blk1, blk4, Host.wh_at1 m c k j _ rfl]
  · rw [blk5, Host.b_at1 m c j _ rfl]
theorem pre_eq2 (c : Dev nD) (t : Fin cfg0.N) (p : Fin 128) (j : Fin 1024) :
    Block.pre (iblk m c 0 t) (iblk m c 1 t) (iblk m c 3 t) (iblk m c 4 t) (iblk m c 5 t) p (Block.col 2 (by omega) j)
      = Cert.Cell.gate (m ((c : Thread nD τ).loc main_arg0)) (m ((c : Thread nD τ).loc main_arg1)) (m ((c : Thread nD τ).loc main_arg7)) (m ((c : Thread nD τ).loc main_arg8)) (row t p) j := by
  unfold Block.pre Cert.Cell.gate
  congr 1
  · congr 1
    · exact Finset.sum_congr rfl fun k _ => by rw [blk0, blk3, Host.wx_at2 m c k j _ rfl]
    · exact Finset.sum_congr rfl fun k _ => by rw [blk1, blk4, Host.wh_at2 m c k j _ rfl]
  · rw [blk5, Host.b_at2 m c j _ rfl]
theorem pre_eq3 (c : Dev nD) (t : Fin cfg0.N) (p : Fin 128) (j : Fin 1024) :
    Block.pre (iblk m c 0 t) (iblk m c 1 t) (iblk m c 3 t) (iblk m c 4 t) (iblk m c 5 t) p (Block.col 3 (by omega) j)
      = Cert.Cell.gate (m ((c : Thread nD τ).loc main_arg0)) (m ((c : Thread nD τ).loc main_arg1)) (m ((c : Thread nD τ).loc main_arg9)) (m ((c : Thread nD τ).loc main_arg10)) (row t p) j := by
  unfold Block.pre Cert.Cell.gate
  congr 1
  · congr 1
    · exact Finset.sum_congr rfl fun k _ => by rw [blk0, blk3, Host.wx_at3 m c k j _ rfl]
    · exact Finset.sum_congr rfl fun k _ => by rw [blk1, blk4, Host.wh_at3 m c k j _ rfl]
  · rw [blk5, Host.b_at3 m c j _ rfl]

theorem cellB_eq (c : Dev nD) (t : Fin cfg0.N) (p : Fin 128) (j : Fin 1024) :
    Block.cellB (iblk m c 0 t) (iblk m c 1 t) (iblk m c 3 t) (iblk m c 4 t) (iblk m c 5 t) (iblk m c 2 t) p j = Cert.Cell.cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (row t p) j := by
  unfold Block.cellB Cert.Cell.cellAt
  rw [pre_eq1, pre_eq0, pre_eq3, blk2]

theorem hiddenB_eq (c : Dev nD) (t : Fin cfg0.N) (p : Fin 128) (j : Fin 1024) :
    Block.hiddenB (iblk m c 0 t) (iblk m c 1 t) (iblk m c 3 t) (iblk m c 4 t) (iblk m c 5 t) (iblk m c 2 t) p j = Cert.Cell.hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row t p) j := by
  unfold Block.hiddenB Cert.Cell.hiddenAt
  rw [pre_eq2, cellB_eq]

theorem predB_eq (c : Dev nD) (t : Fin cfg0.N) (p : Fin 128) (n : Fin 512) :
    Block.predB (iblk m c 0 t) (iblk m c 1 t) (iblk m c 3 t) (iblk m c 4 t) (iblk m c 5 t) (iblk m c 2 t) (iblk m c 6 t) (iblk m c 7 t) p n = Cert.Cell.predAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (row t p) n := by
  unfold Block.predB Cert.Cell.predAt
  rw [blk7, V_main_arg12]
  exact congrArg (fun s : EReal => s + (m ((c : Thread nD τ).loc main_arg12)) (ix1 n))
    (Finset.sum_congr rfl fun k _ => by rw [hiddenB_eq, blk6, Host.wy_at])

/-! ## From blocks to arrays -/

/-! ### The new hidden state -/

/-- What block t writes back is block t of the specification's array. -/
theorem flushed8 (c : Dev nD) (t : Fin cfg0.N) :
    (dats m 0 c).flushed 8 t = ((cfg0.win 8).blk t).view.read (Elt Ideal) (Cert.Cell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  obtain ⟨e0, e1⟩ := idx8 t
  show (cfg0.win 8).cut (grid0.coords t) ((dats m 0 c).after 8 t) = _
  rw [after8]
  unfold hOut
  rw [View.canon_unit_zero hz2]
  simp only [View.ld_unit_zero (S := S128x1024) hz2, View.ld_unit_zero (S := S1024x4096) hz2, View.ld_unit_zero (S := S4096) hz1]
  funext y
  obtain ⟨p, j, rfl⟩ : ∃ (p : Fin 128) (j : Fin 1024), y = ix2 p j := ⟨y 0, y 1, eq_ix2 y⟩
  refine (Block.pay4_apply (iblk m c 0 t) (iblk m c 1 t) (iblk m c 3 t) (iblk m c 4 t) (iblk m c 5 t) (iblk m c 2 t) p j).trans ?_
  refine (hiddenB_eq m c t p j).trans ?_
  show _ = (Cert.Cell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (((cfg0.win 8).blk t).view.emb (ix2 p j))
  unfold Cert.Cell.hiddenArr
  congr 1 <;> apply Fin.ext
  · show 128 * t.val + p.val = win0_8.index t (0 : Fin 2) * 128 + 1 * p.val; omega
  · show j.val = win0_8.index t (1 : Fin 2) * 1024 + 1 * j.val; omega

/-- An index is in block t iff its row is among rows 128 t … 128 t + 127. -/
theorem mem_blk8 (t : Fin cfg0.N) (i : S8192x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v14_0).slice (win0_8.rect t)).set ↔ _
  rw [View.set_slice_whole, Rect.mem_set_unit]
  exact Iff.rfl

/-- Row r lies in block r / 128: the 64 blocks fill the array. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 64 := N_0
  have ht : (i 0).val / 128 < cfg0.N := by rw [hN]; omega
  obtain ⟨e0, e1⟩ := idx8 ⟨(i 0).val / 128, ht⟩
  refine ⟨⟨(i 0).val / 128, ht⟩, flush0_8 _, ?_⟩
  rw [mem_blk8]
  intro a
  match a with
  | ⟨0, _⟩ =>
    show win0_8.index ⟨(i 0).val / 128, ht⟩ (0 : Fin 2) * 128 ≤ (i 0).val ∧ (i 0).val < win0_8.index ⟨(i 0).val / 128, ht⟩ (0 : Fin 2) * 128 + 128
    have e0' : win0_8.index ⟨(i 0).val / 128, ht⟩ (0 : Fin 2) = (i 0).val / 128 := e0
    omega
  | ⟨1, _⟩ =>
    show win0_8.index ⟨(i 0).val / 128, ht⟩ (1 : Fin 2) * 1024 ≤ (i 1).val ∧ (i 1).val < win0_8.index ⟨(i 0).val / 128, ht⟩ (1 : Fin 2) * 1024 + 1024
    omega

/-- The array after the run. -/
theorem final8 (c : Dev nD) : (dats m 0 c).arrAt 8 cfg0.N = Cert.Cell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 8 _ (fun t _ => flushed8 m c t) cover8

/-! ### The new cell state -/

/-- What block t writes back is block t of the specification's array. -/
theorem flushed9 (c : Dev nD) (t : Fin cfg0.N) :
    (dats m 0 c).flushed 9 t = ((cfg0.win 9).blk t).view.read (Elt Ideal) (Cert.Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  obtain ⟨e0, e1⟩ := idx9 t
  show (cfg0.win 9).cut (grid0.coords t) ((dats m 0 c).after 9 t) = _
  rw [after9]
  unfold cOut
  rw [View.canon_unit_zero hz2]
  simp only [View.ld_unit_zero (S := S128x1024) hz2, View.ld_unit_zero (S := S1024x4096) hz2, View.ld_unit_zero (S := S4096) hz1]
  funext y
  obtain ⟨p, j, rfl⟩ : ∃ (p : Fin 128) (j : Fin 1024), y = ix2 p j := ⟨y 0, y 1, eq_ix2 y⟩
  refine (Block.pay3_apply (iblk m c 0 t) (iblk m c 1 t) (iblk m c 3 t) (iblk m c 4 t) (iblk m c 5 t) (iblk m c 2 t) p j).trans ?_
  refine (cellB_eq m c t p j).trans ?_
  show _ = (Cert.Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (((cfg0.win 9).blk t).view.emb (ix2 p j))
  unfold Cert.Cell.cellArr
  congr 1 <;> apply Fin.ext
  · show 128 * t.val + p.val = win0_9.index t (0 : Fin 2) * 128 + 1 * p.val; omega
  · show j.val = win0_9.index t (1 : Fin 2) * 1024 + 1 * j.val; omega

/-- An index is in block t iff its row is among rows 128 t … 128 t + 127. -/
theorem mem_blk9 (t : Fin cfg0.N) (i : S8192x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v14_1).slice (win0_9.rect t)).set ↔ _
  rw [View.set_slice_whole, Rect.mem_set_unit]
  exact Iff.rfl

/-- Row r lies in block r / 128: the 64 blocks fill the array. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 64 := N_0
  have ht : (i 0).val / 128 < cfg0.N := by rw [hN]; omega
  obtain ⟨e0, e1⟩ := idx9 ⟨(i 0).val / 128, ht⟩
  refine ⟨⟨(i 0).val / 128, ht⟩, flush0_9 _, ?_⟩
  rw [mem_blk9]
  intro a
  match a with
  | ⟨0, _⟩ =>
    show win0_9.index ⟨(i 0).val / 128, ht⟩ (0 : Fin 2) * 128 ≤ (i 0).val ∧ (i 0).val < win0_9.index ⟨(i 0).val / 128, ht⟩ (0 : Fin 2) * 128 + 128
    have e0' : win0_9.index ⟨(i 0).val / 128, ht⟩ (0 : Fin 2) = (i 0).val / 128 := e0
    omega
  | ⟨1, _⟩ =>
    show win0_9.index ⟨(i 0).val / 128, ht⟩ (1 : Fin 2) * 1024 ≤ (i 1).val ∧ (i 1).val < win0_9.index ⟨(i 0).val / 128, ht⟩ (1 : Fin 2) * 1024 + 1024
    omega

/-- The array after the run. -/
theorem final9 (c : Dev nD) : (dats m 0 c).arrAt 9 cfg0.N = Cert.Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 9 _ (fun t _ => flushed9 m c t) cover9

/-! ### The prediction -/

/-- What block t writes back is block t of the specification's array. -/
theorem flushed10 (c : Dev nD) (t : Fin cfg0.N) :
    (dats m 0 c).flushed 10 t = ((cfg0.win 10).blk t).view.read (Elt Ideal) (Cert.Cell.predArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  obtain ⟨e0, e1⟩ := idx10 t
  show (cfg0.win 10).cut (grid0.coords t) ((dats m 0 c).after 10 t) = _
  rw [after10]
  unfold yOut
  rw [View.canon_unit_zero hz2]
  simp only [View.ld_unit_zero (S := S128x1024) hz2, View.ld_unit_zero (S := S1024x4096) hz2, View.ld_unit_zero (S := S4096) hz1, View.ld_unit_zero (S := S1024x512) hz2, View.ld_unit_zero (S := S512) hz1]
  funext y
  obtain ⟨p, j, rfl⟩ : ∃ (p : Fin 128) (j : Fin 512), y = ix2 p j := ⟨y 0, y 1, eq_ix2 y⟩
  refine (Block.pay15_apply (iblk m c 0 t) (iblk m c 1 t) (iblk m c 3 t) (iblk m c 4 t) (iblk m c 5 t) (iblk m c 2 t) (iblk m c 6 t) (iblk m c 7 t) p j).trans ?_
  refine (predB_eq m c t p j).trans ?_
  show _ = (Cert.Cell.predArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (((cfg0.win 10).blk t).view.emb (ix2 p j))
  unfold Cert.Cell.predArr
  congr 1 <;> apply Fin.ext
  · show 128 * t.val + p.val = win0_10.index t (0 : Fin 2) * 128 + 1 * p.val; omega
  · show j.val = win0_10.index t (1 : Fin 2) * 512 + 1 * j.val; omega

/-- An index is in block t iff its row is among rows 128 t … 128 t + 127. -/
theorem mem_blk10 (t : Fin cfg0.N) (i : S8192x512.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v14_2).slice (win0_10.rect t)).set ↔ _
  rw [View.set_slice_whole, Rect.mem_set_unit]
  exact Iff.rfl

/-- Row r lies in block r / 128: the 64 blocks fill the array. -/
theorem cover10 (i : S8192x512.Idx) : ∃ t : Fin cfg0.N, (cfg0.win 10).flush t = true ∧ i ∈ ((cfg0.win 10).blk t).view.set := by
  have hi0 : (i 0).val < 8192 := (i 0).isLt
  have hi1 : (i 1).val < 512 := (i 1).isLt
  have hN : cfg0.N = 64 := N_0
  have ht : (i 0).val / 128 < cfg0.N := by rw [hN]; omega
  obtain ⟨e0, e1⟩ := idx10 ⟨(i 0).val / 128, ht⟩
  refine ⟨⟨(i 0).val / 128, ht⟩, flush0_10 _, ?_⟩
  rw [mem_blk10]
  intro a
  match a with
  | ⟨0, _⟩ =>
    show win0_10.index ⟨(i 0).val / 128, ht⟩ (0 : Fin 2) * 128 ≤ (i 0).val ∧ (i 0).val < win0_10.index ⟨(i 0).val / 128, ht⟩ (0 : Fin 2) * 128 + 128
    have e0' : win0_10.index ⟨(i 0).val / 128, ht⟩ (0 : Fin 2) = (i 0).val / 128 := e0
    omega
  | ⟨1, _⟩ =>
    show win0_10.index ⟨(i 0).val / 128, ht⟩ (1 : Fin 2) * 512 ≤ (i 1).val ∧ (i 1).val < win0_10.index ⟨(i 0).val / 128, ht⟩ (1 : Fin 2) * 512 + 512
    omega

/-- The array after the run. -/
theorem final10 (c : Dev nD) : (dats m 0 c).arrAt 10 cfg0.N = Cert.Cell.predArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 10 _ (fun t _ => flushed10 m c t) cover10

/-! ## The run, read -/

/-- Every weakly fair execution terminates with the three results at the specification's arrays of the
    arguments, the arguments unchanged. -/
theorem run : θ_run defs (onTc (τ := τ) (main (F := Ideal))) ⟨m, fun _ => 0, ρ⟩ fun r => ∀ c : Dev nD,
      r.2.mem ((c.tc : Thread nD τ).loc main_v14_2) = Cert.Cell.predArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v14_0) = Cert.Cell.hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v14_1) = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 10).trans (final10 m c), ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 7).trans (((dats m 0 c).arrAt_in 7 rfl _).trans ((A_eq m c 7).trans (V_main_arg12 m c)))⟩) (run_main m ρ)

end Cert.KernelIdeal.KValue

end
-- ==== Proof.RefRead.lean ====
/-
  The reference program's run and its operations read one at a time, brought into scope for the modules that
  compare the reference with the kernel index by index.
-/
import proofs.«128882_j37778532335717_1_alg».proof.Proof.Gen.ReferenceIdeal.Run
import proofs.«128882_j37778532335717_1_alg».proof.Proof.Gen.ReferenceIdeal.Read
-- ==== Proof.RefValue.lean ====
/-
  The reference program's three results are the cell step's three arrays (Spec.lean), index by index.
-/
import proofs.«128882_j37778532335717_1_alg».proof.Proof.RefRead
import proofs.«128882_j37778532335717_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The joined input-and-hidden row at a column of the lower half is the input. -/
theorem xh_lo (x0 x1 : (⟨S8192x1024, .f32⟩ : BufTy).Contents (Elt Ideal)) (r : Fin 8192) (k : Fin 1024) :
    val_main_v0 (F := Ideal) x0 x1 (ix2 r (Cert.Cell.lo k)) = x0 (ix2 r k) := by
  unfold val_main_v0
  exact concatenate_pair_apply_left (1 : Fin S8192x2048.rank) x0 x1
    concatenates_S8192x1024_S8192x1024_S8192x2048_d1 (ix2 r (Cert.Cell.lo k)) rfl (ix2 r k)
    (fun b => match b with | ⟨0, _⟩ => rfl | ⟨1, _⟩ => rfl)

/-- The joined row at a column of the upper half is the hidden state. -/
theorem xh_hi (x0 x1 : (⟨S8192x1024, .f32⟩ : BufTy).Contents (Elt Ideal)) (r : Fin 8192) (k : Fin 1024) :
    val_main_v0 (F := Ideal) x0 x1 (ix2 r (Cert.Cell.hi k)) = x1 (ix2 r k) := by
  unfold val_main_v0
  exact concatenate_pair_apply_right (1 : Fin S8192x2048.rank) x0 x1
    concatenates_S8192x1024_S8192x1024_S8192x2048_d1 (ix2 r (Cert.Cell.hi k)) rfl rfl (ix2 r k)
    (fun b => match b with | ⟨0, _⟩ => fun _ => rfl | ⟨1, _⟩ => fun h => absurd rfl h)
    (by show k.val + 1024 = 1024 + k.val; omega)

/-- The four gate weights side by side, at a column of the first band, are the input gate's weight. -/
theorem w_piece0 (x3 x5 x7 x9 : (⟨S2048x1024, .f32⟩ : BufTy).Contents (Elt Ideal)) (m : Fin 2048) (j : Fin 1024) :
    val_main_v1 (F := Ideal) x3 x5 x7 x9 (ix2 m (⟨j.val, by have := j.isLt; omega⟩ : Fin 4096)) = x3 (ix2 m j) := by
  unfold val_main_v1
  exact concatenate_apply_piece (1 : Fin S2048x4096.rank)
    [⟨S2048x1024, x3⟩, ⟨S2048x1024, x5⟩, ⟨S2048x1024, x7⟩, ⟨S2048x1024, x9⟩]
    concatenates_S2048x1024_S2048x1024_S2048x1024_S2048x1024_S2048x4096_d1 _
    0 (by show 0 < 4; omega) S2048x1024 x3 rfl rfl 0 rfl (ix2 m j)
    (fun b => match b with | ⟨0, _⟩ => fun _ => rfl | ⟨1, _⟩ => fun h => absurd rfl h)
    (Nat.zero_add _)

/-- At a column of the second band they are the forget gate's weight. -/
theorem w_piece1 (x3 x5 x7 x9 : (⟨S2048x1024, .f32⟩ : BufTy).Contents (Elt Ideal)) (m : Fin 2048) (j : Fin 1024) :
    val_main_v1 (F := Ideal) x3 x5 x7 x9 (ix2 m (⟨1024 + j.val, by have := j.isLt; omega⟩ : Fin 4096)) = x5 (ix2 m j) := by
  unfold val_main_v1
  exact concatenate_apply_piece (1 : Fin S2048x4096.rank)
    [⟨S2048x1024, x3⟩, ⟨S2048x1024, x5⟩, ⟨S2048x1024, x7⟩, ⟨S2048x1024, x9⟩]
    concatenates_S2048x1024_S2048x1024_S2048x1024_S2048x1024_S2048x4096_d1 _
    1 (by show 1 < 4; omega) S2048x1024 x5 rfl rfl 1024 rfl (ix2 m j)
    (fun b => match b with | ⟨0, _⟩ => fun _ => rfl | ⟨1, _⟩ => fun h => absurd rfl h)
    rfl

/-- At a column of the third band they are the output gate's weight. -/
theorem w_piece2 (x3 x5 x7 x9 : (⟨S2048x1024, .f32⟩ : BufTy).Contents (Elt Ideal)) (m : Fin 2048) (j : Fin 1024) :
    val_main_v1 (F := Ideal) x3 x5 x7 x9 (ix2 m (⟨2048 + j.val, by have := j.isLt; omega⟩ : Fin 4096)) = x7 (ix2 m j) := by
  unfold val_main_v1
  exact concatenate_apply_piece (1 : Fin S2048x4096.rank)
    [⟨S2048x1024, x3⟩, ⟨S2048x1024, x5⟩, ⟨S2048x1024, x7⟩, ⟨S2048x1024, x9⟩]
    concatenates_S2048x1024_S2048x1024_S2048x1024_S2048x1024_S2048x4096_d1 _
    2 (by show 2 < 4; omega) S2048x1024 x7 rfl rfl 2048 rfl (ix2 m j)
    (fun b => match b with | ⟨0, _⟩ => fun _ => rfl | ⟨1, _⟩ => fun h => absurd rfl h)
    rfl

/-- At a column of the fourth band they are the candidate's weight. -/
theorem w_piece3 (x3 x5 x7 x9 : (⟨S2048x1024, .f32⟩ : BufTy).Contents (Elt Ideal)) (m : Fin 2048) (j : Fin 1024) :
    val_main_v1 (F := Ideal) x3 x5 x7 x9 (ix2 m (⟨3072 + j.val, by have := j.isLt; omega⟩ : Fin 4096)) = x9 (ix2 m j) := by
  unfold val_main_v1
  exact concatenate_apply_piece (1 : Fin S2048x4096.rank)
    [⟨S2048x1024, x3⟩, ⟨S2048x1024, x5⟩, ⟨S2048x1024, x7⟩, ⟨S2048x1024, x9⟩]
    concatenates_S2048x1024_S2048x1024_S2048x1024_S2048x1024_S2048x4096_d1 _
    3 (by show 3 < 4; omega) S2048x1024 x9 rfl rfl 3072 rfl (ix2 m j)
    (fun b => match b with | ⟨0, _⟩ => fun _ => rfl | ⟨1, _⟩ => fun h => absurd rfl h)
    rfl

/-- The four gate biases end to end, at a position of the first band, are the input gate's bias. -/
theorem b_piece0 (x4 x6 x8 x10 : (⟨S1024, .f32⟩ : BufTy).Contents (Elt Ideal)) (j : Fin 1024) :
    val_main_v2 (F := Ideal) x4 x6 x8 x10 (ix1 (⟨j.val, by have := j.isLt; omega⟩ : Fin 4096)) = x4 (ix1 j) := by
  unfold val_main_v2
  exact concatenate_apply_piece (0 : Fin S4096.rank)
    [⟨S1024, x4⟩, ⟨S1024, x6⟩, ⟨S1024, x8⟩, ⟨S1024, x10⟩]
    concatenates_S1024_S1024_S1024_S1024_S4096_d0 _
    0 (by show 0 < 4; omega) S1024 x4 rfl rfl 0 rfl (ix1 j)
    (fun b => match b with | ⟨0, _⟩ => fun h => absurd rfl h)
    (Nat.zero_add _)

/-- At a position of the second band they are the forget gate's bias. -/
theorem b_piece1 (x4 x6 x8 x10 : (⟨S1024, .f32⟩ : BufTy).Contents (Elt Ideal)) (j : Fin 1024) :
    val_main_v2 (F := Ideal) x4 x6 x8 x10 (ix1 (⟨1024 + j.val, by have := j.isLt; omega⟩ : Fin 4096)) = x6 (ix1 j) := by
  unfold val_main_v2
  exact concatenate_apply_piece (0 : Fin S4096.rank)
    [⟨S1024, x4⟩, ⟨S1024, x6⟩, ⟨S1024, x8⟩, ⟨S1024, x10⟩]
    concatenates_S1024_S1024_S1024_S1024_S4096_d0 _
    1 (by show 1 < 4; omega) S1024 x6 rfl rfl 1024 rfl (ix1 j)
    (fun b => match b with | ⟨0, _⟩ => fun h => absurd rfl h)
    rfl

/-- At a position of the third band they are the output gate's bias. -/
theorem b_piece2 (x4 x6 x8 x10 : (⟨S1024, .f32⟩ : BufTy).Contents (Elt Ideal)) (j : Fin 1024) :
    val_main_v2 (F := Ideal) x4 x6 x8 x10 (ix1 (⟨2048 + j.val, by have := j.isLt; omega⟩ : Fin 4096)) = x8 (ix1 j) := by
  unfold val_main_v2
  exact concatenate_apply_piece (0 : Fin S4096.rank)
    [⟨S1024, x4⟩, ⟨S1024, x6⟩, ⟨S1024, x8⟩, ⟨S1024, x10⟩]
    concatenates_S1024_S1024_S1024_S1024_S4096_d0 _
    2 (by show 2 < 4; omega) S1024 x8 rfl rfl 2048 rfl (ix1 j)
    (fun b => match b with | ⟨0, _⟩ => fun h => absurd rfl h)
    rfl

/-- At a position of the fourth band they are the candidate's bias. -/
theorem b_piece3 (x4 x6 x8 x10 : (⟨S1024, .f32⟩ : BufTy).Contents (Elt Ideal)) (j : Fin 1024) :
    val_main_v2 (F := Ideal) x4 x6 x8 x10 (ix1 (⟨3072 + j.val, by have := j.isLt; omega⟩ : Fin 4096)) = x10 (ix1 j) := by
  unfold val_main_v2
  exact concatenate_apply_piece (0 : Fin S4096.rank)
    [⟨S1024, x4⟩, ⟨S1024, x6⟩, ⟨S1024, x8⟩, ⟨S1024, x10⟩]
    concatenates_S1024_S1024_S1024_S1024_S4096_d0 _
    3 (by show 3 < 4; omega) S1024 x10 rfl rfl 3072 rfl (ix1 j)
    (fun b => match b with | ⟨0, _⟩ => fun h => absurd rfl h)
    rfl

/-- The pre-activation of all four gates at a row and a column of the 4096: the contraction over the 2048 joined
    columns is the sum over the input's columns plus the sum over the hidden state's, and the bias is added. -/
theorem preact (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (n : Fin 4096) :
    val_main_v6 (F := Ideal) x0 x1 x3 x4 x5 x6 x7 x8 x9 x10 (ix2 r n) =
      ((∑ k : Fin 1024, x0 (ix2 r k) * val_main_v1 (F := Ideal) x3 x5 x7 x9 (ix2 (Cert.Cell.lo k) n)) +
        ∑ k : Fin 1024, x1 (ix2 r k) * val_main_v1 (F := Ideal) x3 x5 x7 x9 (ix2 (Cert.Cell.hi k) n)) +
      val_main_v2 (F := Ideal) x4 x6 x8 x10 (ix1 n) := by
  have el : ∀ k : Fin 2048, lidx_main_v3 (ix2 r n) k = ix2 r k := fun k =>
    funext fun a => match a with | ⟨0, _⟩ => rfl | ⟨1, _⟩ => rfl
  have er : ∀ k : Fin 2048, ridx_main_v3 (ix2 r n) k = ix2 k n := fun k =>
    funext fun a => match a with | ⟨0, _⟩ => rfl | ⟨1, _⟩ => rfl
  have eb : idx_main_v4 (idx_main_v5 (ix2 r n)) = ix1 n := funext fun a => match a with | ⟨0, _⟩ => rfl
  rw [val_main_v6_apply, val_main_v3_apply, val_main_v5_apply, val_main_v4_apply, eb]
  simp only [el, er]
  rw [Cert.Cell.sum_split]
  simp only [xh_lo, xh_hi]
  rfl

/-- In the first band of columns the pre-activation is the input gate's. -/
theorem gate_in (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v6 (F := Ideal) x0 x1 x3 x4 x5 x6 x7 x8 x9 x10 (ix2 r (⟨j.val, by have := j.isLt; omega⟩ : Fin 4096)) =
      Cert.Cell.gate x0 x1 x3 x4 r j := by
  rw [preact, Cert.Cell.gate]
  simp only [w_piece0, b_piece0]

/-- In the second band it is the forget gate's. -/
theorem gate_forget (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v6 (F := Ideal) x0 x1 x3 x4 x5 x6 x7 x8 x9 x10 (ix2 r (⟨1024 + j.val, by have := j.isLt; omega⟩ : Fin 4096)) =
      Cert.Cell.gate x0 x1 x5 x6 r j := by
  rw [preact, Cert.Cell.gate]
  simp only [w_piece1, b_piece1]

/-- In the third band it is the output gate's. -/
theorem gate_out (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v6 (F := Ideal) x0 x1 x3 x4 x5 x6 x7 x8 x9 x10 (ix2 r (⟨2048 + j.val, by have := j.isLt; omega⟩ : Fin 4096)) =
      Cert.Cell.gate x0 x1 x7 x8 r j := by
  rw [preact, Cert.Cell.gate]
  simp only [w_piece2, b_piece2]

/-- In the fourth band it is the candidate's. -/
theorem gate_cand (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v6 (F := Ideal) x0 x1 x3 x4 x5 x6 x7 x8 x9 x10 (ix2 r (⟨3072 + j.val, by have := j.isLt; omega⟩ : Fin 4096)) =
      Cert.Cell.gate x0 x1 x9 x10 r j := by
  rw [preact, Cert.Cell.gate]
  simp only [w_piece3, b_piece3]

/-- One over one plus the exponential of minus the first band's pre-activation is the logistic function of the input gate. -/
theorem sig_in (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v16 (F := Ideal) x0 x1 x3 x4 x5 x6 x7 x8 x9 x10 (ix2 r j) = Ideal.logistic (Cert.Cell.gate x0 x1 x3 x4 r j) := by
  have e : idx_main_v7 (ix2 r j) = ix2 r (⟨j.val, by have := j.isLt; omega⟩ : Fin 4096) :=
    funext fun a => match a with | ⟨0, _⟩ => rfl | ⟨1, _⟩ => rfl
  rw [val_main_v16_apply, val_main_v15_apply, val_main_cst_0_apply, val_main_v14_apply, val_main_v13_apply,
    val_main_cst_apply, val_main_v12_apply, val_main_v11_apply, val_main_v7_apply, e, gate_in]
  simp only [Ideal.hostDivf_def, Ideal.addf_def, Ideal.hostUnary_exp_def, Ideal.hostNegf_def, Ideal.negf_def, Ideal.ofBits_def]
  exact Cert.Cell.one_div_one_add_exp_neg _

/-- The same over the second band is the logistic function of the forget gate. -/
theorem sig_forget (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v22 (F := Ideal) x0 x1 x3 x4 x5 x6 x7 x8 x9 x10 (ix2 r j) = Ideal.logistic (Cert.Cell.gate x0 x1 x5 x6 r j) := by
  have e : idx_main_v8 (ix2 r j) = ix2 r (⟨1024 + j.val, by have := j.isLt; omega⟩ : Fin 4096) :=
    funext fun a => match a with | ⟨0, _⟩ => rfl | ⟨1, _⟩ => rfl
  rw [val_main_v22_apply, val_main_v21_apply, val_main_cst_2_apply, val_main_v20_apply, val_main_v19_apply,
    val_main_cst_1_apply, val_main_v18_apply, val_main_v17_apply, val_main_v8_apply, e, gate_forget]
  simp only [Ideal.hostDivf_def, Ideal.addf_def, Ideal.hostUnary_exp_def, Ideal.hostNegf_def, Ideal.negf_def, Ideal.ofBits_def]
  exact Cert.Cell.one_div_one_add_exp_neg _

/-- The same over the third band is the logistic function of the output gate. -/
theorem sig_out (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v28 (F := Ideal) x0 x1 x3 x4 x5 x6 x7 x8 x9 x10 (ix2 r j) = Ideal.logistic (Cert.Cell.gate x0 x1 x7 x8 r j) := by
  have e : idx_main_v9 (ix2 r j) = ix2 r (⟨2048 + j.val, by have := j.isLt; omega⟩ : Fin 4096) :=
    funext fun a => match a with | ⟨0, _⟩ => rfl | ⟨1, _⟩ => rfl
  rw [val_main_v28_apply, val_main_v27_apply, val_main_cst_4_apply, val_main_v26_apply, val_main_v25_apply,
    val_main_cst_3_apply, val_main_v24_apply, val_main_v23_apply, val_main_v9_apply, e, gate_out]
  simp only [Ideal.hostDivf_def, Ideal.addf_def, Ideal.hostUnary_exp_def, Ideal.hostNegf_def, Ideal.negf_def, Ideal.ofBits_def]
  exact Cert.Cell.one_div_one_add_exp_neg _

/-- The hyperbolic tangent over the fourth band is that of the candidate's pre-activation. -/
theorem tanh_cand (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v29 (F := Ideal) x0 x1 x3 x4 x5 x6 x7 x8 x9 x10 (ix2 r j) = Ideal.tanh (Cert.Cell.gate x0 x1 x9 x10 r j) := by
  have e : idx_main_v10 (ix2 r j) = ix2 r (⟨3072 + j.val, by have := j.isLt; omega⟩ : Fin 4096) :=
    funext fun a => match a with | ⟨0, _⟩ => rfl | ⟨1, _⟩ => rfl
  rw [val_main_v29_apply, val_main_v10_apply, e, gate_cand]
  rfl

/-- The new cell state at a row and unit: forget gate times the old cell state plus input gate times candidate. -/
theorem cell_at (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v32 (F := Ideal) x0 x1 x2 x3 x4 x5 x6 x7 x8 x9 x10 (ix2 r j) = Cert.Cell.cellAt x0 x1 x2 x3 x4 x5 x6 x9 x10 r j := by
  rw [val_main_v32_apply, val_main_v30_apply, val_main_v31_apply, sig_forget, sig_in, tanh_cand, Cert.Cell.cellAt]
  rfl

/-- The new hidden state at a row and unit: output gate times the hyperbolic tangent of the new cell state. -/
theorem hidden_at (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (j : Fin 1024) :
    val_main_v34 (F := Ideal) x0 x1 x2 x3 x4 x5 x6 x7 x8 x9 x10 (ix2 r j) = Cert.Cell.hiddenAt x0 x1 x2 x3 x4 x5 x6 x7 x8 x9 x10 r j := by
  rw [val_main_v34_apply, val_main_v33_apply, sig_out, cell_at, Cert.Cell.hiddenAt]
  rfl

/-- The prediction at a row and output: the contraction of the new hidden state with the read-out weight over the
    1024 units, plus the read-out bias. -/
theorem pred_at (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (x11 : (⟨S1024x512, .f32⟩ : BufTy).Contents (Elt Ideal)) (x12 : (⟨S512, .f32⟩ : BufTy).Contents (Elt Ideal)) (r : Fin 8192) (n : Fin 512) :
    val_main_v38 (F := Ideal) x0 x1 x2 x3 x4 x5 x6 x7 x8 x9 x10 x11 x12 (ix2 r n) = Cert.Cell.predAt x0 x1 x2 x3 x4 x5 x6 x7 x8 x9 x10 x11 x12 r n := by
  have el : ∀ k : Fin 1024, lidx_main_v35 (ix2 r n) k = ix2 r k := fun k =>
    funext fun a => match a with | ⟨0, _⟩ => rfl | ⟨1, _⟩ => rfl
  have er : ∀ k : Fin 1024, ridx_main_v35 (ix2 r n) k = ix2 k n := fun k =>
    funext fun a => match a with | ⟨0, _⟩ => rfl | ⟨1, _⟩ => rfl
  have eb : idx_main_v36 (idx_main_v37 (ix2 r n)) = ix1 n := funext fun a => match a with | ⟨0, _⟩ => rfl
  rw [val_main_v38_apply, val_main_v35_apply, val_main_v37_apply, val_main_v36_apply, eb, Cert.Cell.predAt]
  simp only [el, er, hidden_at]
  rfl

/-- The reference's new cell state is the specification's. -/
theorem cell_eq (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v32 (F := Ideal) x0 x1 x2 x3 x4 x5 x6 x7 x8 x9 x10 = Cert.Cell.cellArr x0 x1 x2 x3 x4 x5 x6 x7 x8 x9 x10 := by
  funext i
  obtain ⟨r, j, rfl⟩ : ∃ (r : Fin 8192) (j : Fin 1024), i = ix2 r j := ⟨i 0, i 1, eq_ix2 i⟩
  rw [cell_at]
  rfl

/-- The reference's new hidden state is the specification's. -/
theorem hidden_eq (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v34 (F := Ideal) x0 x1 x2 x3 x4 x5 x6 x7 x8 x9 x10 = Cert.Cell.hiddenArr x0 x1 x2 x3 x4 x5 x6 x7 x8 x9 x10 := by
  funext i
  obtain ⟨r, j, rfl⟩ : ∃ (r : Fin 8192) (j : Fin 1024), i = ix2 r j := ⟨i 0, i 1, eq_ix2 i⟩
  rw [hidden_at]
  rfl

/-- The reference's prediction is the specification's. -/
theorem pred_eq (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (x11 : (⟨S1024x512, .f32⟩ : BufTy).Contents (Elt Ideal)) (x12 : (⟨S512, .f32⟩ : BufTy).Contents (Elt Ideal)) :
    val_main_v38 (F := Ideal) x0 x1 x2 x3 x4 x5 x6 x7 x8 x9 x10 x11 x12 = Cert.Cell.predArr x0 x1 x2 x3 x4 x5 x6 x7 x8 x9 x10 x11 x12 := by
  funext i
  obtain ⟨r, n, rfl⟩ : ∃ (r : Fin 8192) (n : Fin 512), i = ix2 r n := ⟨i 0, i 1, eq_ix2 i⟩
  rw [pred_at]
  rfl

end Cert.ReferenceIdeal.RefValue

end
-- ==== Proof.lean ====
/-
  One step of a recurrent cell with four gates and a linear read-out, computed by a pipelined kernel over 64
  blocks of 128 batch rows, against the same step written with whole-array operations.

  The kernel multiplies the input rows and the hidden-state rows by separate halves of the gate weights and adds
  the two products; the reference multiplies the two laid side by side by the whole weights. Over the extended
  reals these agree because a sum over 2048 indices is the sum over the first 1024 plus the sum over the last
  1024: addition there is commutative and associative, so nothing needs the inputs to be finite. The kernel's
  logistic function is the reference's 1 / (1 + e^(-x)) at every extended real, narrowing a float's format does
  nothing to an extended real, and all other operations are the same on both sides. Both programs therefore end
  with the three arrays of Spec.lean: the kernel's by KernelValue.lean, the reference's by RefValue.lean.

  Each kernel program runs to the end without fault and leaves its arguments unchanged (KernelFrame.lean,
  KernelIdealFrame.lean); the reference's frame is its run with the results dropped; the idealization rewrote no
  operation, so there is nothing to preserve.
-/
import proofs.«128882_j37778532335717_1_alg».proof.Defs
import proofs.«128882_j37778532335717_1_alg».proof.Proof.Gen.Kernel
import proofs.«128882_j37778532335717_1_alg».proof.Proof.Gen.KernelIdeal
import proofs.«128882_j37778532335717_1_alg».proof.Proof.Gen.ReferenceIdeal
import proofs.«128882_j37778532335717_1_alg».proof.Proof.Gen.Pre_finite_inputs
import proofs.«128882_j37778532335717_1_alg».proof.Proof.KernelFrame
import proofs.«128882_j37778532335717_1_alg».proof.Proof.KernelIdealFrame
import proofs.«128882_j37778532335717_1_alg».proof.Proof.KernelValue
import proofs.«128882_j37778532335717_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the specification's prediction, hidden state and cell state of the (agreeing) arguments. -/
theorem algebraic : Cert.algebraic_KernelIdeal_ReferenceIdeal := by
  intro m ρ m' ρ' _ hagree
  refine ⟨fun c => Cert.Cell.predArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Cell.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Cell.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨?_, ?_, ?_, (h c).2.2.2⟩
  · rw [(h c).1, Cert.ReferenceIdeal.Read.val_main_v38_eq, Cert.ReferenceIdeal.RefValue.pred_eq,
      a0, a1, a2, a3, a4, a5, a6, a7, a8, a9, a10, a11, a12]
  · rw [(h c).2.1, Cert.ReferenceIdeal.Read.val_main_v34_eq, Cert.ReferenceIdeal.RefValue.hidden_eq,
      a0, a1, a2, a3, a4, a5, a6, a7, a8, a9, a10]
  · rw [(h c).2.2.1, Cert.ReferenceIdeal.Read.val_main_v32_eq, Cert.ReferenceIdeal.RefValue.cell_eq,
      a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
